-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2000x256 : Shape := ⟨3, ![4, 2000, 256]⟩
abbrev S4x2000x30x512 : Shape := ⟨4, ![4, 2000, 30, 512]⟩
abbrev S4x2000x30 : Shape := ⟨3, ![4, 2000, 30]⟩
abbrev S768x256 : Shape := ⟨2, ![768, 256]⟩
abbrev S256 : Shape := ⟨1, ![256]⟩
abbrev S256x256 : Shape := ⟨2, ![256, 256]⟩
abbrev S_ : Shape := ⟨0, ![]⟩

class Facts : Prop where
  bcast_S_S4x2000x256 : S_.BroadcastsInDim S4x2000x256 (![] : Fin 0 → Fin S4x2000x256.rank)
  reducesTo_S4x2000x256_S_d0_1_2 : S4x2000x256.ReducesTo [0, 1, 2] S_
  h_S_ : 0 < S_.numel
  bcast_S_S4x2000x30x512 : S_.BroadcastsInDim S4x2000x30x512 (![] : Fin 0 → Fin S4x2000x30x512.rank)
  reducesTo_S4x2000x30x512_S_d0_1_2_3 : S4x2000x30x512.ReducesTo [0, 1, 2, 3] S_
  bcast_S_S4x2000x30 : S_.BroadcastsInDim S4x2000x30 (![] : Fin 0 → Fin S4x2000x30.rank)
  reducesTo_S4x2000x30_S_d0_1_2 : S4x2000x30.ReducesTo [0, 1, 2] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4x2000x256 .f32) (main_arg1 : FVec F S4x2000x30x512 .f32) (main_arg2 : FVec F S4x2000x30 .f32) (main_arg3 : FVec F S768x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S4x2000x256 .f32 := Host.absf main_arg0
  let main_cst : FVec F S_ .f32 := constant S_ .f32 0x7F800000#32
  let main_v1 : FVec F S4x2000x256 .f32 := broadcastInDim S4x2000x256 ![] bcast_S_S4x2000x256 main_cst
  let main_v2 : IVec S4x2000x256 1 := cmpf .olt main_v0 main_v1
  let main_c : IVec S_ 1 := constantI S_ 1 1#1
  let main_v3 : IVec S_ 1 := (fun x v => Host.reduce IntOp.andi x v reducesTo_S4x2000x256_S_d0_1_2 h_S_) main_v2 main_c
  let main_v4 : FVec F S4x2000x30x512 .f32 := Host.absf main_arg1
  let main_cst_0 : FVec F S_ .f32 := constant S_ .f32 0x7F800000#32
  let main_v5 : FVec F S4x2000x30x512 .f32 := broadcastInDim S4x2000x30x512 ![] bcast_S_S4x2000x30x512 main_cst_0
  let main_v6 : IVec S4x2000x30x512 1 := cmpf .olt main_v4 main_v5
  let main_c_1 : IVec S_ 1 := constantI S_ 1 1#1
  let main_v7 : IVec S_ 1 := (fun x v => Host.reduce IntOp.andi x v reducesTo_S4x2000x30x512_S_d0_1_2_3 h_S_) main_v6 main_c_1
  let main_v8 : IVec S_ 1 := andi main_v3 main_v7
  let main_v9 : FVec F S4x2000x30 .f32 := Host.absf main_arg2
  let main_cst_2 : FVec F S_ .f32 := constant S_ .f32 0x7F800000#32
  let main_v10 : FVec F S4x2000x30 .f32 := broadcastInDim S4x2000x30 ![] bcast_S_S4x2000x30 main_cst_2
  let main_v11 : IVec S4x2000x30 1 := cmpf .olt main_v9 main_v10
  let main_c_3 : IVec S_ 1 := constantI S_ 1 1#1
  let main_v12 : IVec S_ 1 := (fun x v => Host.reduce IntOp.andi x v reducesTo_S4x2000x30_S_d0_1_2 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_arg8 main_v13 main_v16
-- ==== Kernel.lean ====
abbrev S4x2000x256 : Shape := ⟨3, ![4, 2000, 256]⟩
abbrev S4x2000x30x512 : Shape := ⟨4, ![4, 2000, 30, 512]⟩
abbrev S4x2000x30 : Shape := ⟨3, ![4, 2000, 30]⟩
abbrev S768x256 : Shape := ⟨2, ![768, 256]⟩
abbrev S256 : Shape := ⟨1, ![256]⟩
abbrev S256x256 : Shape := ⟨2, ![256, 256]⟩
abbrev S512x256 : Shape := ⟨2, ![512, 256]⟩
abbrev S4x2000x30x1 : Shape := ⟨4, ![4, 2000, 30, 1]⟩
abbrev S1x80x256 : Shape := ⟨3, ![1, 80, 256]⟩
abbrev S1x80x30x512 : Shape := ⟨4, ![1, 80, 30, 512]⟩
abbrev S1x80x30x1 : Shape := ⟨4, ![1, 80, 30, 1]⟩
abbrev S80x256 : Shape := ⟨2, ![80, 256]⟩
abbrev S80x30x512 : Shape := ⟨3, ![80, 30, 512]⟩
abbrev S80x30x1 : Shape := ⟨3, ![80, 30, 1]⟩
abbrev S1x256 : Shape := ⟨2, ![1, 256]⟩
abbrev S2400x512 : Shape := ⟨2, ![2400, 512]⟩
abbrev S2400x256 : Shape := ⟨2, ![2400, 256]⟩
abbrev S80x30x256 : Shape := ⟨3, ![80, 30, 256]⟩
abbrev S80x1x256 : Shape := ⟨3, ![80, 1, 256]⟩
abbrev S1x1x256 : Shape := ⟨3, ![1, 1, 256]⟩
abbrev S80x1 : Shape := ⟨2, ![80, 1]⟩

abbrev nBuf : Space → Nat
  | .hbm => 16
  | .vmem => 15
  | .smem => 0
  | _ => 0

abbrev bufTy : (tb : Table) → Fin (tcTables nBuf tb) → BufTy
  | .hbm, ⟨0, _⟩ => ⟨S4x2000x256, .f32⟩
  | .hbm, ⟨1, _⟩ => ⟨S4x2000x30x512, .f32⟩
  | .hbm, ⟨2, _⟩ => ⟨S4x2000x30, .f32⟩
  | .hbm, ⟨3, _⟩ => ⟨S768x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .bf16⟩
  | .hbm, ⟨11, _⟩ => ⟨S512x256, .f32⟩
  | .hbm, ⟨12, _⟩ => ⟨S512x256, .bf16⟩
  | .hbm, ⟨13, _⟩ => ⟨S256x256, .bf16⟩
  | .hbm, ⟨14, _⟩ => ⟨S4x2000x30x1, .f32⟩
  | .hbm, ⟨15, _⟩ => ⟨S4x2000x256, .f32⟩
  | .local _ .vmem, ⟨0, _⟩ => ⟨S1x80x256, .f32⟩
  | .local _ .vmem, ⟨1, _⟩ => ⟨S1x80x256, .f32⟩
  | .local _ .vmem, ⟨2, _⟩ => ⟨S1x80x30x512, .f32⟩
  | .local _ .vmem, ⟨3, _⟩ => ⟨S1x80x30x512, .f32⟩
  | .local _ .vmem, ⟨4, _⟩ => ⟨S1x80x30x1, .f32⟩
  | .local _ .vmem, ⟨5, _⟩ => ⟨S1x80x30x1, .f32⟩
  | .local _ .vmem, ⟨6, _⟩ => ⟨S256x256, .bf16⟩
  | .local _ .vmem, ⟨7, _⟩ => ⟨S512x256, .bf16⟩
  | .local _ .vmem, ⟨8, _⟩ => ⟨S256, .f32⟩
  | .local _ .vmem, ⟨9, _⟩ => ⟨S256x256, .bf16⟩
  | .local _ .vmem, ⟨10, _⟩ => ⟨S256, .f32⟩
  | .local _ .vmem, ⟨11, _⟩ => ⟨S256x256, .f32⟩
  | .local _ .vmem, ⟨12, _⟩ => ⟨S256, .f32⟩
  | .local _ .vmem, ⟨13, _⟩ => ⟨S1x80x256, .f32⟩
  | .local _ .vmem, ⟨14, _⟩ => ⟨S1x80x256, .f32⟩
  | _, _ => ⟨S4x2000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x80x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80x30x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x80x30x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x80x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  slices_S768x256_S256x256_0_0 : S768x256.Slices ![0, 0] S256x256
  bitsLt_bf16_f32 : FTy.bits .bf16 < FTy.bits .f32
  slices_S768x256_S512x256_256_0 : S768x256.Slices ![256, 0] S512x256
  shapeCasts_S4x2000x30_S4x2000x30x1 : S4x2000x30.ShapeCasts S4x2000x30x1
  inb_S1x80x256_S1x80x256_0_0_0 : ∀ a, (![0, 0, 0] : Fin 3 → Nat) a + S1x80x256.size a ≤ S1x80x256.size a
  h_S1x80x256 : 0 < S1x80x256.numel
  shapeCasts_S1x80x256_S80x256 : S1x80x256.ShapeCasts S80x256
  inb_S1x80x30x512_S1x80x30x512_0_0_0_0 : ∀ a, (![0, 0, 0, 0] : Fin 4 → Nat) a + S1x80x30x512.size a ≤ S1x80x30x512.size a
  h_S1x80x30x512 : 0 < S1x80x30x512.numel
  shapeCasts_S1x80x30x512_S80x30x512 : S1x80x30x512.ShapeCasts S80x30x512
  inb_S1x80x30x1_S1x80x30x1_0_0_0_0 : ∀ a, (![0, 0, 0, 0] : Fin 4 → Nat) a + S1x80x30x1.size a ≤ S1x80x30x1.size a
  h_S1x80x30x1 : 0 < S1x80x30x1.numel
  shapeCasts_S1x80x30x1_S80x30x1 : S1x80x30x1.ShapeCasts S80x30x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S80x256 : S1x256.Broadcasts S80x256
  shapeCasts_S80x30x512_S2400x512 : S80x30x512.ShapeCasts S2400x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S2400x256_S80x30x256 : S2400x256.ShapeCasts S80x30x256
  shapeCasts_S80x256_S80x1x256 : S80x256.ShapeCasts S80x1x256
  broadcasts_S80x1x256_S80x30x256 : S80x1x256.Broadcasts S80x30x256
  shapeCasts_S80x30x256_S2400x256 : S80x30x256.ShapeCasts S2400x256
  shapeCasts_S256_S1x1x256 : S256.ShapeCasts S1x1x256
  broadcasts_S1x1x256_S80x30x256 : S1x1x256.Broadcasts S80x30x256
  broadcasts_S80x30x1_S80x30x256 : S80x30x1.Broadcasts S80x30x256
  reduces_S80x30x256_S80x256 : S80x30x256.Reduces [1] S80x256
  reduces_S80x30x1_S80x1 : S80x30x1.Reduces [1] S80x1
  broadcasts_S80x1_S80x256 : S80x1.Broadcasts S80x256
  shapeCasts_S80x256_S1x80x256 : S80x256.ShapeCasts S1x80x256
  dot_S80x256_S256x256_S80x256_1_0_0_1_n_n_wf : DotDims.WF S80x256 S256x256 S80x256 [1] [0] [0] [1] [] []
  dot_S2400x512_S512x256_S2400x256_1_0_0_1_n_n_wf : DotDims.WF S2400x512 S512x256 S2400x256 [1] [0] [0] [1] [] []
  dot_S2400x256_S256x256_S2400x256_1_0_0_1_n_n_wf : DotDims.WF S2400x256 S256x256 S2400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x256.size a ≤ S4x2000x256.size a
  hwx0_0 : ∀ i : grid0.Coords, EltTy.bits .f32 = 32 ∨ (Rect.block (s := S4x2000x256) S1x80x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80x30x512.size a ≤ S4x2000x30x512.size a
  hwx0_1 : ∀ i : grid0.Coords, EltTy.bits .f32 = 32 ∨ (Rect.block (s := S4x2000x30x512) S1x80x30x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80x30x1.size a ≤ S4x2000x30x1.size a
  hwx0_2 : ∀ i : grid0.Coords, EltTy.bits .f32 = 32 ∨ (Rect.block (s := S4x2000x30x1) S1x80x30x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x80x256.size a ≤ S4x2000x256.size a
  hwx0_10 : ∀ i : grid0.Coords, EltTy.bits .f32 = 32 ∨ (Rect.block (s := S4x2000x256) S1x80x256.size (cc0_transform_10 i) (hinb0_10 i)).WholeWords (EltTy.packing .f32)

variable [Facts₀]

def dot_S80x256_S256x256_S80x256_1_0_0_1_n_n : DotDims S80x256 S256x256 S80x256 where
  lhsContracting := [1]
  rhsContracting := [0]
  lhsNonContracting := [0]
  rhsNonContracting := [1]
  lhsBatch := []
  rhsBatch := []
  wf := dot_S80x256_S256x256_S80x256_1_0_0_1_n_n_wf
def dot_S2400x512_S512x256_S2400x256_1_0_0_1_n_n : DotDims S2400x512 S512x256 S2400x256 where
  lhsContracting := [1]
  rhsContracting := [0]
  lhsNonContracting := [0]
  rhsNonContracting := [1]
  lhsBatch := []
  rhsBatch := []
  wf := dot_S2400x512_S512x256_S2400x256_1_0_0_1_n_n_wf
def dot_S2400x256_S256x256_S2400x256_1_0_0_1_n_n : DotDims S2400x256 S256x256 S2400x256 where
  lhsContracting := [1]
  rhsContracting := [0]
  lhsNonContracting := [0]
  rhsNonContracting := [1]
  lhsBatch := []
  rhsBatch := []
  wf := dot_S2400x256_S256x256_S2400x256_1_0_0_1_n_n_wf

abbrev win0_0 : Pipeline.Window sig grid0 :=
  Pipeline.Window.ofSpec (Memref.whole main_arg0) S1x80x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x80x30x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x80x30x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x80x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x2000x256 : Shape := ⟨3, ![4, 2000, 256]⟩
abbrev S4x2000x30x512 : Shape := ⟨4, ![4, 2000, 30, 512]⟩
abbrev S4x2000x30 : Shape := ⟨3, ![4, 2000, 30]⟩
abbrev S768x256 : Shape := ⟨2, ![768, 256]⟩
abbrev S256 : Shape := ⟨1, ![256]⟩
abbrev S256x256 : Shape := ⟨2, ![256, 256]⟩
abbrev S4x2000x1x256 : Shape := ⟨4, ![4, 2000, 1, 256]⟩
abbrev S4x2000x30x256 : Shape := ⟨4, ![4, 2000, 30, 256]⟩
abbrev S4x2000x30x768 : Shape := ⟨4, ![4, 2000, 30, 768]⟩
abbrev S1x1x1x256 : Shape := ⟨4, ![1, 1, 1, 256]⟩
abbrev S_ : Shape := ⟨0, ![]⟩
abbrev S4x2000x30x1 : Shape := ⟨4, ![4, 2000, 30, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2000x256, .f32⟩
  | .hbm, ⟨1, _⟩ => ⟨S4x2000x30x512, .f32⟩
  | .hbm, ⟨2, _⟩ => ⟨S4x2000x30, .f32⟩
  | .hbm, ⟨3, _⟩ => ⟨S768x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4x2000x1x256, .f32⟩
  | .hbm, ⟨10, _⟩ => ⟨S4x2000x30x256, .f32⟩
  | .hbm, ⟨11, _⟩ => ⟨S4x2000x30x768, .f32⟩
  | .hbm, ⟨12, _⟩ => ⟨S4x2000x30x256, .f32⟩
  | .hbm, ⟨13, _⟩ => ⟨S1x1x1x256, .f32⟩
  | .hbm, ⟨14, _⟩ => ⟨S4x2000x30x256, .f32⟩
  | .hbm, ⟨15, _⟩ => ⟨S4x2000x30x256, .f32⟩
  | .hbm, ⟨16, _⟩ => ⟨S_, .f32⟩
  | .hbm, ⟨17, _⟩ => ⟨S4x2000x30x256, .f32⟩
  | .hbm, ⟨18, _⟩ => ⟨S4x2000x30x256, .f32⟩
  | .hbm, ⟨19, _⟩ => ⟨S4x2000x30x256, .f32⟩
  | .hbm, ⟨20, _⟩ => ⟨S1x1x1x256, .f32⟩
  | .hbm, ⟨21, _⟩ => ⟨S4x2000x30x256, .f32⟩
  | .hbm, ⟨22, _⟩ => ⟨S4x2000x30x256, .f32⟩
  | .hbm, ⟨23, _⟩ => ⟨S_, .f32⟩
  | .hbm, ⟨24, _⟩ => ⟨S4x2000x30x256, .f32⟩
  | .hbm, ⟨25, _⟩ => ⟨S4x2000x30x256, .f32⟩
  | .hbm, ⟨26, _⟩ => ⟨S4x2000x30x256, .f32⟩
  | .hbm, ⟨27, _⟩ => ⟨S1x1x1x256, .f32⟩
  | .hbm, ⟨28, _⟩ => ⟨S4x2000x30x256, .f32⟩
  | .hbm, ⟨29, _⟩ => ⟨S4x2000x30x256, .f32⟩
  | .hbm, ⟨30, _⟩ => ⟨S4x2000x30x1, .f32⟩
  | .hbm, ⟨31, _⟩ => ⟨S4x2000x30x256, .f32⟩
  | .hbm, ⟨32, _⟩ => ⟨S4x2000x30x256, .f32⟩
  | .hbm, ⟨33, _⟩ => ⟨S_, .f32⟩
  | .hbm, ⟨34, _⟩ => ⟨S4x2000x256, .f32⟩
  | .hbm, ⟨35, _⟩ => ⟨S_, .f32⟩
  | .hbm, ⟨36, _⟩ => ⟨S4x2000x256, .f32⟩
  | .hbm, ⟨37, _⟩ => ⟨S4x2000x256, .f32⟩
  | .hbm, ⟨38, _⟩ => ⟨S4x2000x256, .f32⟩
  | _, _ => ⟨S4x2000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S4x2000x256_S4x2000x1x256_0_1_3 : S4x2000x256.BroadcastsInDim S4x2000x1x256 (![0, 1, 3] : Fin 3 → Fin S4x2000x1x256.rank)
  bcast_S4x2000x1x256_S4x2000x30x256_0_1_2_3 : S4x2000x1x256.BroadcastsInDim S4x2000x30x256 (![0, 1, 2, 3] : Fin 4 → Fin S4x2000x30x256.rank)
  concatenates_S4x2000x30x256_S4x2000x30x512_S4x2000x30x768_d3 : Shape.Concatenates [S4x2000x30x256, S4x2000x30x512] S4x2000x30x768 3
  bcast_S256_S1x1x1x256_3 : S256.BroadcastsInDim S1x1x1x256 (![3] : Fin 1 → Fin S1x1x1x256.rank)
  bcast_S1x1x1x256_S4x2000x30x256_0_1_2_3 : S1x1x1x256.BroadcastsInDim S4x2000x30x256 (![0, 1, 2, 3] : Fin 4 → Fin S4x2000x30x256.rank)
  bcast_S_S4x2000x30x256 : S_.BroadcastsInDim S4x2000x30x256 (![] : Fin 0 → Fin S4x2000x30x256.rank)
  bcast_S4x2000x30_S4x2000x30x1_0_1_2 : S4x2000x30.BroadcastsInDim S4x2000x30x1 (![0, 1, 2] : Fin 3 → Fin S4x2000x30x1.rank)
  bcast_S4x2000x30x1_S4x2000x30x256_0_1_2_3 : S4x2000x30x1.BroadcastsInDim S4x2000x30x256 (![0, 1, 2, 3] : Fin 4 → Fin S4x2000x30x256.rank)
  reducesTo_S4x2000x30x256_S4x2000x256_d2 : S4x2000x30x256.ReducesTo [2] S4x2000x256
  h_S_ : 0 < S_.numel
  bcast_S_S4x2000x256 : S_.BroadcastsInDim S4x2000x256 (![] : Fin 0 → Fin S4x2000x256.rank)
  dot_S4x2000x30x768_S768x256_S4x2000x30x256_3_0_012_1_n_n_wf : DotDims.WF S4x2000x30x768 S768x256 S4x2000x30x256 [3] [0] [0, 1, 2] [1] [] []
  dot_S4x2000x30x256_S256x256_S4x2000x30x256_3_0_012_1_n_n_wf : DotDims.WF S4x2000x30x256 S256x256 S4x2000x30x256 [3] [0] [0, 1, 2] [1] [] []

variable [Facts₀]

def dot_S4x2000x30x768_S768x256_S4x2000x30x256_3_0_012_1_n_n : DotDims S4x2000x30x768 S768x256 S4x2000x30x256 where
  lhsContracting := [3]
  rhsContracting := [0]
  lhsNonContracting := [0, 1, 2]
  rhsNonContracting := [1]
  lhsBatch := []
  rhsBatch := []
  wf := dot_S4x2000x30x768_S768x256_S4x2000x30x256_3_0_012_1_n_n_wf
def dot_S4x2000x30x256_S256x256_S4x2000x30x256_3_0_012_1_n_n : DotDims S4x2000x30x256 S256x256 S4x2000x30x256 where
  lhsContracting := [3]
  rhsContracting := [0]
  lhsNonContracting := [0, 1, 2]
  rhsNonContracting := [1]
  lhsBatch := []
  rhsBatch := []
  wf := dot_S4x2000x30x256_S256x256_S4x2000x30x256_3_0_012_1_n_n_wf

class Facts : Prop extends Facts₀ where

variable [Facts]
-- ==== Proof.Finite.lean ====
/-
  The precondition read: every entry of every input array is a real number.

  The printed predicate asks, of each of the nine input arrays, that `|x| < +∞` hold at every entry
  (a conjunction over all entries, computed as a reduction by "and" starting from "true"), and joins
  the nine answers by "and". An extended real `x` with `max x (-x) < ⊤` is neither `⊥` nor `⊤`, so it
  is the image of a real number. The argument goes: one entry, then one array, then the three
  printed parts of the nine-fold conjunction, innermost first.
-/
import proofs.«428306_j7370163880383_3_alg».proof.Pre_finite_inputs
import proofs.«428306_j7370163880383_3_alg».proof.Proof.Gen.Pre_finite_inputs
import Idealize.ShloMosaic.PureOps.Ideal
import Idealize.ShloMosaic.Lib.ReduceAll
import Idealize.ShloMosaic.Lib.ValueIdx
import Idealize.ShloMosaic.Lib.IdealHost

noncomputable section

namespace Cert.Mlp.Finite

open Idealize.ShloMosaic Cert.Pre_finite_inputs

/-! ## One entry -/

/-- The f32 word `0x7F800000` (sign 0, exponent all ones, fraction 0) denotes `+∞`. -/
theorem ofBits_pos_inf : Ideal.ofBits .f32 0x7F800000#32 = (⊤ : EReal) := by
  simp [Ideal.ofBits, Ideal.ieee]

/-- An extended real whose absolute value `max x (-x)` lies strictly below `⊤` is a real number:
    at `x = ⊥` the maximum is `-⊥ = ⊤`, and at `x = ⊤` it is `⊤` itself. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The ordered comparison "less than" of two extended reals answers 1 only where `x < y` holds. -/
theorem lt_of_cmp_olt {x y : EReal} (h : Ideal.cmp .olt x y = 1#1) : x < y := by
  by_contra hn
  simp [Ideal.cmp, hn] at h

/-- One entry: where the comparison `|x| < +∞` answers 1, `x` is a real number. -/
theorem real_of_elem (x : Ideal .f32)
    (h : FloatOps.cmpf .olt (FloatOps.hostAbsf x) (FloatOps.ofBits (F := Ideal) .f32 0x7F800000#32) = 1#1) :
    ∃ r : ℝ, x = (r : EReal) := by
  -- the absolute value is `max x (-x)`, the constant is `⊤`, the comparison is the order's
  rw [Ideal.hostAbsf_def, Ideal.absf_def, Ideal.ofBits_def, ofBits_pos_inf, Ideal.cmpf_def] at h
  exact real_of_abs_lt_top x (lt_of_cmp_olt h)

/-! ## One array -/

/-- The shape of rank 0 has exactly one index (there is no axis to choose a coordinate on). -/
instance : Subsingleton S_.Idx := ⟨fun _ _ => funext fun d => d.elim0⟩

/-- One array of any shape: where the conjunction over all entries of `|x i| < +∞` is true, every entry of `x`
    is a real number. A conjunction that is true has only true members; the member at `i` compares
    `|x i|` with the broadcast scalar `+∞`, which reads the same at every index. -/
theorem real_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
        (cmpf .olt (Host.absf x) (broadcastInDim S ![] hb (constant S_ .f32 0x7F800000#32)))
        (constantI S_ 1 1#1) hr hu ValueIdx.ix0 = 1#1) :
    ∀ i, ∃ r : ℝ, x i = (r : EReal) := by
  intro i
  have hi := Host.reduce_andi_all _ _ hr hu ValueIdx.ix0 e i
  rw [cmpf, ValueIdx.broadcastInDim_scalar_apply] at hi
  exact real_of_elem (x i) hi

/-! ## The nine-fold conjunction, in its three printed parts

The conjunction nests to the left: `((((((((p0 ∧ p1) ∧ p2) ∧ p3) ∧ p4) ∧ p5) ∧ p6) ∧ p7) ∧ p8)`, where `pk` is
the all-entries test of input `k`. The last part receives `p0 ∧ … ∧ p6` as one word and adds `p7`, `p8`; the
middle part receives `p0 ∧ p1 ∧ p2` as one word and the entrywise test of input 3 not yet reduced, and adds
`p3` … `p6`; the first part forms `p0`, `p1`, `p2` and the entrywise test of input 3. -/

variable [Facts]

/-- The last part: if it is true, the word it was handed is true and inputs 7 and 8 are real. -/
theorem part2_one (a7 : FVec Ideal S256x256 .f32) (a8 : FVec Ideal S256 .f32) (v33 : IVec S_ 1)
    (h : fn_part2 (F := Ideal) a7 a8 v33 ValueIdx.ix0 = 1#1) :
    v33 ValueIdx.ix0 = 1#1 ∧ (∀ i, ∃ r : ℝ, a7 i = (r : EReal)) ∧ (∀ i, ∃ r : ℝ, a8 i = (r : EReal)) := by
  dsimp only [fn_part2, Idealize.ShloMosaic.andi] at h
  -- (v33 ∧ p7) ∧ p8
  obtain ⟨h38, h42⟩ := IntOp.andi_eq_one.1 h
  obtain ⟨h33, h37⟩ := IntOp.andi_eq_one.1 h38
  exact ⟨h33, real_of_all a7 _ _ _ h37, real_of_all a8 _ _ _ h42⟩

/-- The middle part: if it is true, the word it was handed is true, the entrywise test it was handed is
    true at every entry, and inputs 4 to 8 are real. -/
theorem part1_one (a4 : FVec Ideal S256 .f32) (a5 : FVec Ideal S256x256 .f32) (a6 : FVec Ideal S256 .f32)
    (a7 : FVec Ideal S256x256 .f32) (a8 : FVec Ideal S256 .f32) (v13 : IVec S_ 1) (v16 : IVec S768x256 1)
    (h : fn_part1 (F := Ideal) a4 a5 a6 a7 a8 v13 v16 ValueIdx.ix0 = 1#1) :
    v13 ValueIdx.ix0 = 1#1
    ∧ Host.reduce IntOp.andi v16 (constantI S_ 1 1#1) Facts.reducesTo_S768x256_S_d0_1 Facts.h_S_ ValueIdx.ix0 = 1#1
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) := by
  dsimp only [fn_part1] at h
  obtain ⟨h33, r7, r8⟩ := part2_one a7 a8 _ h
  dsimp only [Idealize.ShloMosaic.andi] at h33
  -- ((((v13 ∧ p3) ∧ p4) ∧ p5) ∧ p6)
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  exact ⟨h13, h17, real_of_all a4 _ _ _ h22, real_of_all a5 _ _ _ h27, real_of_all a6 _ _ _ h32, r7, r8⟩

omit [Facts] in
/-- Where the printed predicate "every `|x| < +inf`, over all nine inputs" is all ones, every entry of every input
    is a real number (neither infinity). -/
theorem real_of_pre [hP : Cert.Pre_finite_inputs.Facts]
    (a0 : FVec Ideal S4x2000x256 .f32) (a1 : FVec Ideal S4x2000x30x512 .f32) (a2 : FVec Ideal S4x2000x30 .f32)
    (a3 : FVec Ideal S768x256 .f32) (a4 : FVec Ideal S256 .f32) (a5 : FVec Ideal S256x256 .f32)
    (a6 : FVec Ideal S256 .f32) (a7 : FVec Ideal S256x256 .f32) (a8 : FVec Ideal S256 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal)) := by
  -- the predicate's value is an array of rank 0: read it at its one index
  have h0 := congrFun h ValueIdx.ix0
  dsimp only [fn] at h0
  obtain ⟨h13, h17, r4, r5, r6, r7, r8⟩ := part1_one a4 a5 a6 a7 a8 _ _ h0
  dsimp only [Idealize.ShloMosaic.andi] at h13
  -- ((p0 ∧ p1) ∧ p2)
  obtain ⟨h8, h12⟩ := IntOp.andi_eq_one.1 h13
  obtain ⟨h3, h7⟩ := IntOp.andi_eq_one.1 h8
  exact ⟨real_of_all a0 _ _ _ h3, real_of_all a1 _ _ _ h7, real_of_all a2 _ _ _ h12, real_of_all a3 _ _ _ h17,
    r4, r5, r6, r7, r8⟩

end Cert.Mlp.Finite

end
-- ==== Proof.MlpSpec.lean ====
/-
  The node update of a three-layer edge MLP with a masked mean over the thirty neighbours, entry by entry on the
  extended reals, in the two arrangements the two programs compute.

  For one node with features `hv`, neighbour features `he k` and neighbour mask `mk k`:
    h1 k = relu ([hv, he k] · W1 + b1),   h2 k = relu (h1 k · W2 + b2),
    reference:  hv + (Σ_k (h2 k · W3 + b3) * mk k) / 30
    kernel:     hv + ((Σ_k h2 k * mk k) / 30) · W3 + b3 * ((Σ_k mk k) / 30),
  and the kernel forms the first layer from the two row blocks of W1, `he k · W1[256:] + (hv · W1[:256] + b1)`.
  The two agree wherever every input is a real number: the first-layer split regroups one sum, and the third layer
  commutes with the masked mean because both are linear (that step needs finiteness: it distributes a product over a sum).
-/
import Idealize.ShloMosaic.PureOps.Ideal
import Idealize.ShloMosaic.Lib.ValueIdx

noncomputable section

namespace Cert.Mlp

open Idealize.ShloMosaic Idealize.ShloMosaic.ValueIdx

/-- The divisor of both means, as both programs spell it: the f32 word of `30.0`. -/
abbrev c30 : EReal := Ideal.ofBits .f32 0x41F00000#32

/-- One entry of a dense layer followed by the rectifier: `max (Σ_d x d * W d j + b j) 0`. -/
def layer {n : ℕ} (x : Fin n → EReal) (W : Fin n → Fin 256 → EReal) (b : Fin 256 → EReal) (j : Fin 256) : EReal :=
  max ((∑ d : Fin n, x d * W d j) + b j) 0

/-- The node's features followed by one neighbour's: the 768 inputs of the first layer. -/
def cat (hv : Fin 256 → EReal) (he : Fin 512 → EReal) (d : Fin 768) : EReal :=
  if h : d.val < 256 then hv ⟨d.val, h⟩ else he ⟨d.val - 256, by omega⟩

/-- The first layer as the kernel forms it: the neighbour's part of the product, plus the node's part with the bias. -/
def layerSplit (hv : Fin 256 → EReal) (he : Fin 512 → EReal) (Wv : Fin 256 → Fin 256 → EReal)
    (We : Fin 512 → Fin 256 → EReal) (b : Fin 256 → EReal) (j : Fin 256) : EReal :=
  max ((∑ d : Fin 512, he d * We d j) + ((∑ d : Fin 256, hv d * Wv d j) + b j)) 0

/-- The update of one node at output column `h`, as the reference computes it: the third layer per neighbour, masked,
    then the mean over the neighbours. -/
def nodeRef (hv : Fin 256 → EReal) (he : Fin 30 → Fin 512 → EReal) (mk : Fin 30 → EReal)
    (W1 : Fin 768 → Fin 256 → EReal) (b1 : Fin 256 → EReal) (W2 : Fin 256 → Fin 256 → EReal) (b2 : Fin 256 → EReal)
    (W3 : Fin 256 → Fin 256 → EReal) (b3 : Fin 256 → EReal) (h : Fin 256) : EReal :=
  hv h + Ideal.div (∑ k : Fin 30,
      ((∑ d : Fin 256, layer (layer (cat hv (he k)) W1 b1) W2 b2 d * W3 d h) + b3 h) * mk k) c30

/-- The same update as the kernel computes it: the masked mean of the second layer first, the third layer once on it,
    the bias scaled by the mean of the mask. -/
def nodeKer (hv : Fin 256 → EReal) (he : Fin 30 → Fin 512 → EReal) (mk : Fin 30 → EReal)
    (W1v : Fin 256 → Fin 256 → EReal) (W1e : Fin 512 → Fin 256 → EReal) (b1 : Fin 256 → EReal)
    (W2 : Fin 256 → Fin 256 → EReal) (b2 : Fin 256 → EReal)
    (W3 : Fin 256 → Fin 256 → EReal) (b3 : Fin 256 → EReal) (h : Fin 256) : EReal :=
  hv h + ((∑ d : Fin 256,
        Ideal.div (∑ k : Fin 30, layer (layerSplit hv (he k) W1v W1e b1) W2 b2 d * mk k) c30 * W3 d h)
      + b3 h * Ideal.div (∑ k : Fin 30, mk k) c30)

/-- The reference's result array as one function of the nine argument arrays, index by index: entry `(b, n, h)` is
    node `(b, n)`'s update at column `h`. -/
def G (a0 : (⟨3, ![4, 2000, 256]⟩ : Shape).Idx → EReal) (a1 : (⟨4, ![4, 2000, 30, 512]⟩ : Shape).Idx → EReal)
    (a2 : (⟨3, ![4, 2000, 30]⟩ : Shape).Idx → EReal) (a3 : (⟨2, ![768, 256]⟩ : Shape).Idx → EReal)
    (a4 : (⟨1, ![256]⟩ : Shape).Idx → EReal) (a5 : (⟨2, ![256, 256]⟩ : Shape).Idx → EReal)
    (a6 : (⟨1, ![256]⟩ : Shape).Idx → EReal) (a7 : (⟨2, ![256, 256]⟩ : Shape).Idx → EReal)
    (a8 : (⟨1, ![256]⟩ : Shape).Idx → EReal) : (⟨3, ![4, 2000, 256]⟩ : Shape).Idx → EReal := fun i =>
  let b : Fin 4 := i 0
  let n : Fin 2000 := i 1
  let h : Fin 256 := i 2
  nodeRef (fun d => a0 (ix3 b n d)) (fun k d => a1 (ix4 b n k d)) (fun k => a2 (ix3 b n k))
    (fun d j => a3 (ix2 d j)) (fun j => a4 (ix1 j)) (fun d j => a5 (ix2 d j)) (fun j => a6 (ix1 j))
    (fun d j => a7 (ix2 d j)) (fun j => a8 (ix1 j)) h

/-- The kernel's result array as one function of the ten arrays its windows read (the mask with a trailing unit axis,
    W1 as its two row blocks), index by index. -/
def GK (A0 : (⟨3, ![4, 2000, 256]⟩ : Shape).Idx → EReal) (A1 : (⟨4, ![4, 2000, 30, 512]⟩ : Shape).Idx → EReal)
    (A2 : (⟨4, ![4, 2000, 30, 1]⟩ : Shape).Idx → EReal) (A3 : (⟨2, ![256, 256]⟩ : Shape).Idx → EReal)
    (A4 : (⟨2, ![512, 256]⟩ : Shape).Idx → EReal) (A5 : (⟨1, ![256]⟩ : Shape).Idx → EReal)
    (A6 : (⟨2, ![256, 256]⟩ : Shape).Idx → EReal) (A7 : (⟨1, ![256]⟩ : Shape).Idx → EReal)
    (A8 : (⟨2, ![256, 256]⟩ : Shape).Idx → EReal) (A9 : (⟨1, ![256]⟩ : Shape).Idx → EReal) :
    (⟨3, ![4, 2000, 256]⟩ : Shape).Idx → EReal := fun i =>
  let b : Fin 4 := i 0
  let n : Fin 2000 := i 1
  let h : Fin 256 := i 2
  nodeKer (fun d => A0 (ix3 b n d)) (fun k d => A1 (ix4 b n k d)) (fun k => A2 (ix4 b n k (0 : Fin 1)))
    (fun d j => A3 (ix2 d j)) (fun d j => A4 (ix2 d j)) (fun j => A5 (ix1 j)) (fun d j => A6 (ix2 d j))
    (fun j => A7 (ix1 j)) (fun d j => A8 (ix2 d j)) (fun j => A9 (ix1 j)) h

end Cert.Mlp

end
-- ==== Proof.RefIsG.lean ====
/-
  The reference's result, read one operation at a time, is the node update `G` of the argument arrays.
-/
import proofs.«428306_j7370163880383_3_alg».proof.Proof.Gen.ReferenceIdeal.Read
import proofs.«428306_j7370163880383_3_alg».proof.Proof.MlpSpec
import Idealize.ShloMosaic.Lib.Pipeline.Value
import Idealize.ShloMosaic.Lib.ValueIdx
import Idealize.ShloMosaic.PureOps.Ideal.Laws

noncomputable section

namespace Cert.Mlp.Ref

open Idealize.ShloMosaic Idealize.ShloMosaic.ValueIdx Cert.ReferenceIdeal Cert.ReferenceIdeal.Read

section Stages

variable (x0 : (⟨S4x2000x256, .f32⟩ : BufTy).Contents (Elt Ideal)) (x1 : (⟨S4x2000x30x512, .f32⟩ : BufTy).Contents (Elt Ideal))
  (x2 : (⟨S4x2000x30, .f32⟩ : BufTy).Contents (Elt Ideal)) (x3 : (⟨S768x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal))
  (b : Fin 4) (n : Fin 2000) (k : Fin 30)

/-! ## The quantities of one node `(b, n)` and one neighbour `k`, in the specification's words -/

/-- The 768 inputs of the first layer: node `(b, n)`'s features followed by those of its neighbour `k`. -/
abbrev refIn : Fin 768 → EReal :=
  cat (fun d => x0 (ix3 b n d)) (fun d => x1 (ix4 b n k d))

/-- The first hidden layer for neighbour `k` of node `(b, n)`. -/
abbrev refH1 : Fin 256 → EReal :=
  layer (refIn x0 x1 b n k) (fun d j => x3 (ix2 d j)) (fun j => x4 (ix1 j))

/-- The second hidden layer for neighbour `k` of node `(b, n)`. -/
abbrev refH2 : Fin 256 → EReal :=
  layer (refH1 x0 x1 x3 x4 b n k) (fun d j => x5 (ix2 d j)) (fun j => x6 (ix1 j))

/-! ## The first layer's input: the node's features joined with one neighbour's -/

/-- The joined array at `(b, n, k, d)` is entry `d` of node `(b, n)`'s 256 features followed by the 512 features of its
    neighbour `k`: a column below 256 falls in the first piece, which repeats the node's features along the
    neighbour axis; a column from 256 on falls in the second piece, 256 columns further left. -/
theorem v2_at (d : Fin 768) :
    val_main_v2 (F := Ideal) x0 x1 (ix4 b n k d) = refIn x0 x1 b n k d := by
  unfold val_main_v2 refIn cat
  by_cases h : d.val < 256
  · rw [dif_pos h,
      concatenate_pair_apply_left (3 : Fin 4) (val_main_v1 (F := Ideal) x0) x1 _ (ix4 b n k d) rfl (ix4 b n k ⟨d.val, h⟩)
        (fun a => by match a with | ⟨0, _⟩ => rfl | ⟨1, _⟩ => rfl | ⟨2, _⟩ => rfl | ⟨3, _⟩ => rfl),
      val_main_v1_apply, val_main_v0_apply]
    exact congrArg x0 (funext fun a => Fin.ext (by match a with | ⟨0, _⟩ => rfl | ⟨1, _⟩ => rfl | ⟨2, _⟩ => rfl))
  · have hd := d.isLt
    rw [dif_neg h]
    exact concatenate_pair_apply_right (3 : Fin 4) (val_main_v1 (F := Ideal) x0) x1 _ (ix4 b n k d) rfl rfl
      (ix4 b n k ⟨d.val - 256, by omega⟩)
      (fun a ha => by
        match a, ha with
        | ⟨0, _⟩, _ => rfl
        | ⟨1, _⟩, _ => rfl
        | ⟨2, _⟩, _ => rfl
        | ⟨3, _⟩, ha => exact absurd rfl ha)
      (by show (d.val - 256) + 256 = d.val; omega)

/-! ## The small stages: biases, the rectifier's zero, the mask, the divisor -/

/-- The first bias, spread over the batch, node and neighbour axes, is its entry at the column. -/
theorem v5_at (j : Fin 256) : val_main_v5 (F := Ideal) x4 (ix4 b n k j) = x4 (ix1 j) := by
  rw [val_main_v5_apply, val_main_v4_apply]
  exact congrArg x4 (funext fun a => Fin.ext (by match a with | ⟨0, _⟩ => rfl))

/-- The second bias, spread the same way. -/
theorem v10_at (j : Fin 256) : val_main_v10 (F := Ideal) x6 (ix4 b n k j) = x6 (ix1 j) := by
  rw [val_main_v10_apply, val_main_v9_apply]
  exact congrArg x6 (funext fun a => Fin.ext (by match a with | ⟨0, _⟩ => rfl))

/-- The third bias, spread the same way. -/
theorem v15_at (j : Fin 256) : val_main_v15 (F := Ideal) x8 (ix4 b n k j) = x8 (ix1 j) := by
  rw [val_main_v15_apply, val_main_v14_apply]
  exact congrArg x8 (funext fun a => Fin.ext (by match a with | ⟨0, _⟩ => rfl))

/-- The first rectifier's comparison array is zero everywhere. -/
theorem relu0_at (i : S4x2000x30x256.Idx) : val_main_call0_v0 (F := Ideal) i = (0 : EReal) := by
  rw [val_main_call0_v0_apply, val_main_call0_cst_apply, Ideal.ofBits_def, Ideal.ofBits_zero_f32]

/-- The second rectifier's comparison array is zero everywhere. -/
theorem relu1_at (i : S4x2000x30x256.Idx) : val_main_call1_v0 (F := Ideal) i = (0 : EReal) := by
  rw [val_main_call1_v0_apply, val_main_call1_cst_apply, Ideal.ofBits_def, Ideal.ofBits_zero_f32]

/-- The mask, spread along the columns, is neighbour `k`'s mask entry at every column. -/
theorem v18_at (h : Fin 256) : val_main_v18 (F := Ideal) x2 (ix4 b n k h) = x2 (ix3 b n k) := by
  rw [val_main_v18_apply, val_main_v17_apply]
  exact congrArg x2 (funext fun a => Fin.ext (by match a with | ⟨0, _⟩ => rfl | ⟨1, _⟩ => rfl | ⟨2, _⟩ => rfl))

/-- The divisor array is the word of `30.0` everywhere. -/
theorem v21_at (i : S4x2000x256.Idx) : val_main_v21 (F := Ideal) i = c30 := by
  rw [val_main_v21_apply, val_main_cst_0_apply, Ideal.ofBits_def]

/-! ## The first dense layer -/

/-- The first product at `(b, n, k, j)`: the joined inputs against column `j` of the first weight matrix. -/
theorem v3_at (j : Fin 256) :
    val_main_v3 (F := Ideal) x0 x1 x3 (ix4 b n k j) = ∑ d : Fin 768, refIn x0 x1 b n k d * x3 (ix2 d j) := by
  rw [val_main_v3_apply]
  refine Finset.sum_congr rfl fun d _ => ?_
  have el : lidx_main_v3 (ix4 b n k j) d = ix4 b n k d := funext fun a => Fin.ext (by match a with | ⟨0, _⟩ => rfl | ⟨1, _⟩ => rfl | ⟨2, _⟩ => rfl | ⟨3, _⟩ => rfl)
  have er : ridx_main_v3 (ix4 b n k j) d = ix2 d j := funext fun a => Fin.ext (by match a with | ⟨0, _⟩ => rfl | ⟨1, _⟩ => rfl)
  rw [el, er, v2_at]

/-- The first hidden layer at `(b, n, k, j)`: product plus bias, rectified. -/
theorem v7_at (j : Fin 256) :
    val_main_v7 (F := Ideal) x0 x1 x3 x4 (ix4 b n k j) = refH1 x0 x1 x3 x4 b n k j := by
  show _ = max ((∑ d : Fin 768, refIn x0 x1 b n k d * x3 (ix2 d j)) + x4 (ix1 j)) 0
  rw [val_main_v7_apply, val_main_v6_apply, v3_at, v5_at, relu0_at, Ideal.maximumf_def, Ideal.addf_def]

/-! ## The second dense layer -/

/-- The second product at `(b, n, k, j)`: the first hidden layer against column `j` of the second weight matrix. -/
theorem v8_at (j : Fin 256) :
    val_main_v8 (F := Ideal) x0 x1 x3 x4 x5 (ix4 b n k j)
      = ∑ d : Fin 256, refH1 x0 x1 x3 x4 b n k d * x5 (ix2 d j) := by
  rw [val_main_v8_apply]
  refine Finset.sum_congr rfl fun d _ => ?_
  have el : lidx_main_v8 (ix4 b n k j) d = ix4 b n k d := funext fun a => Fin.ext (by match a with | ⟨0, _⟩ => rfl | ⟨1, _⟩ => rfl | ⟨2, _⟩ => rfl | ⟨3, _⟩ => rfl)
  have er : ridx_main_v8 (ix4 b n k j) d = ix2 d j := funext fun a => Fin.ext (by match a with | ⟨0, _⟩ => rfl | ⟨1, _⟩ => rfl)
  rw [el, er, v7_at]

/-- The second hidden layer at `(b, n, k, j)`. -/
theorem v12_at (j : Fin 256) :
    val_main_v12 (F := Ideal) x0 x1 x3 x4 x5 x6 (ix4 b n k j) = refH2 x0 x1 x3 x4 x5 x6 b n k j := by
  show _ = max ((∑ d : Fin 256, refH1 x0 x1 x3 x4 b n k d * x5 (ix2 d j)) + x6 (ix1 j)) 0
  rw [val_main_v12_apply, val_main_v11_apply, v8_at, v10_at, relu1_at, Ideal.maximumf_def, Ideal.addf_def]

/-! ## The third dense layer, masked -/

/-- The third product at `(b, n, k, h)`: the second hidden layer against column `h` of the third weight matrix. -/
theorem v13_at (h : Fin 256) :
    val_main_v13 (F := Ideal) x0 x1 x3 x4 x5 x6 x7 (ix4 b n k h)
      = ∑ d : Fin 256, refH2 x0 x1 x3 x4 x5 x6 b n k d * x7 (ix2 d h) := by
  rw [val_main_v13_apply]
  refine Finset.sum_congr rfl fun d _ => ?_
  have el : lidx_main_v13 (ix4 b n k h) d = ix4 b n k d := funext fun a => Fin.ext (by match a with | ⟨0, _⟩ => rfl | ⟨1, _⟩ => rfl | ⟨2, _⟩ => rfl | ⟨3, _⟩ => rfl)
  have er : ridx_main_v13 (ix4 b n k h) d = ix2 d h := funext fun a => Fin.ext (by match a with | ⟨0, _⟩ => rfl | ⟨1, _⟩ => rfl)
  rw [el, er, v12_at]

/-- The masked third layer at `(b, n, k, h)`: product plus bias (no rectifier), times neighbour `k`'s mask entry. -/
theorem v19_at (h : Fin 256) :
    val_main_v19 (F := Ideal) x0 x1 x2 x3 x4 x5 x6 x7 x8 (ix4 b n k h)
      = ((∑ d : Fin 256, refH2 x0 x1 x3 x4 x5 x6 b n k d * x7 (ix2 d h)) + x8 (ix1 h)) * x2 (ix3 b n k) := by
  rw [val_main_v19_apply, val_main_v16_apply, v13_at, v15_at, v18_at, Ideal.mulf_def, Ideal.addf_def]

/-! ## The mean over the neighbours and the residual -/

/-- The sum over the thirty neighbours at `(b, n, h)`: the reduction starts from zero, which a sum absorbs. -/
theorem v20_at (h : Fin 256) :
    val_main_v20 (F := Ideal) x0 x1 x2 x3 x4 x5 x6 x7 x8 (ix3 b n h)
      = ∑ k : Fin 30, ((∑ d : Fin 256, refH2 x0 x1 x3 x4 x5 x6 b n k d * x7 (ix2 d h)) + x8 (ix1 h)) * x2 (ix3 b n k) := by
  rw [val_main_v20_apply, val_main_cst_apply, Ideal.ofBits_def, Ideal.ofBits_zero_f32, zero_add]
  refine Finset.sum_congr rfl fun k _ => ?_
  have e : idx_main_v20 (ix3 b n h) k = ix4 b n k h := funext fun a => Fin.ext (by match a with | ⟨0, _⟩ => rfl | ⟨1, _⟩ => rfl | ⟨2, _⟩ => rfl | ⟨3, _⟩ => rfl)
  rw [e, v19_at]

/-- The reference's last stage at `(b, n, h)` is node `(b, n)`'s update at column `h`: the node's own feature plus the
    neighbour sum divided by the word of `30.0`. -/
theorem v23_at (h : Fin 256) :
    val_main_v23 (F := Ideal) x0 x1 x2 x3 x4 x5 x6 x7 x8 (ix3 b n h)
      = nodeRef (fun d => x0 (ix3 b n d)) (fun k d => x1 (ix4 b n k d)) (fun k => x2 (ix3 b n k))
          (fun d j => x3 (ix2 d j)) (fun j => x4 (ix1 j)) (fun d j => x5 (ix2 d j)) (fun j => x6 (ix1 j))
          (fun d j => x7 (ix2 d j)) (fun j => x8 (ix1 j)) h := by
  show _ = x0 (ix3 b n h) + Ideal.div (∑ k : Fin 30,
      ((∑ d : Fin 256, refH2 x0 x1 x3 x4 x5 x6 b n k d * x7 (ix2 d h)) + x8 (ix1 h)) * x2 (ix3 b n k)) c30
  rw [val_main_v23_apply, val_main_v22_apply, v20_at, v21_at, Ideal.hostDivf_def, Ideal.addf_def]

end Stages

/-- The reference's last stage, as a function of the nine argument arrays, is `G`: at `(b, n, h)` the node's features
    plus the mean over the neighbours of the masked third layer. -/
theorem ref_eq_G (x0 : (⟨S4x2000x256, .f32⟩ : BufTy).Contents (Elt Ideal)) (x1 : (⟨S4x2000x30x512, .f32⟩ : BufTy).Contents (Elt Ideal))
    (x2 : (⟨S4x2000x30, .f32⟩ : BufTy).Contents (Elt Ideal)) (x3 : (⟨S768x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) :
    val_main_v23 (F := Ideal) x0 x1 x2 x3 x4 x5 x6 x7 x8 = Cert.Mlp.G x0 x1 x2 x3 x4 x5 x6 x7 x8 := by
  funext i
  -- every index of the result is `(b, n, h)` for its three coordinates, and `G` there is that node's update
  obtain ⟨b, n, h, rfl⟩ : ∃ (b : Fin 4) (n : Fin 2000) (h : Fin 256), i = ix3 b n h := ⟨i 0, i 1, i 2, eq_ix3 i⟩
  exact v23_at x0 x1 x2 x3 x4 x5 x6 x7 x8 b n h

end Cert.Mlp.Ref

end
-- ==== Proof.LibFlatten.lean ====
/-
  Layout operations of rank three read at an index given by coordinates, and the two operations that carry a sum:
  a stack of rows `[a, b, c]` flattened to `[a * b, c]` and back (row `p * b + q` of the flat array is row `(p, q)`
  of the stack), the three ways a smaller array is stretched over `[a, b, c]` (one row per `a`, one row for all, one
  column per `(a, b)`), the unit-axis casts that precede them, a sum over the middle axis, and a matrix product into
  a zero accumulator as the plain sum over the shared index.
-/
import Idealize.ShloMosaic.Lib.Pipeline.Value
import Idealize.ShloMosaic.Lib.ValueIdx
import Idealize.ShloMosaic.PureOps.Ideal.Laws

namespace Cert.LibFlatten

open Idealize.ShloMosaic Idealize.ShloMosaic.ValueIdx

variable {α : Type}

/-! ## A stack of rows flattened, and a flat array stacked -/

/-- `[a, b, c]` cast to `[n, c]` with `n = a * b`: row `p * b + q` of the result is row `(p, q)` of the operand. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (i : Fin n)
    (hi : i.val = p.val * b + q.val) :
    shapeCast ⟨2, ![n, c]⟩ x h (ix2 i r) = x (ix3 p q r) :=
  shapeCast_apply x h _ _ (by
    rw [Shape.rowMajor_val_three, Shape.rowMajor_val_two]
    show (p.val * b + q.val) * c + r.val = i.val * c + r.val
    rw [hi])

/-- `[n, c]` cast to `[a, b, c]` with `n = a * b`: row `(p, q)` of the result is row `p * b + q` of the operand. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (r : Fin c) (i : Fin n)
    (hi : i.val = p.val * b + q.val) :
    shapeCast ⟨3, ![a, b, c]⟩ y h (ix3 p q r) = y (ix2 i r) :=
  shapeCast_apply y h _ _ (by
    rw [Shape.rowMajor_val_three, Shape.rowMajor_val_two]
    show i.val * c + r.val = (p.val * b + q.val) * c + r.val
    rw [hi])

/-! ## Unit axes put in -/

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- `[c]` cast to `[1, 1, c]` reads, at `(u, u', r)`, the operand at `r`. -/
theorem shapeCast_c_11c_apply {c : ℕ} (x : (⟨1, ![c]⟩ : Shape).Idx → α)
    (h : (⟨1, ![c]⟩ : Shape).ShapeCasts ⟨3, ![1, 1, c]⟩) (u u' : Fin 1) (r : Fin c) :
    shapeCast ⟨3, ![1, 1, c]⟩ x h (ix3 u u' r) = x (ix1 r) :=
  shapeCast_apply x h _ _ (by
    have hu : u.val = 0 := by omega
    have hu' : u'.val = 0 := by omega
    rw [Shape.rowMajor_val_three, Shape.rowMajor_val_one]
    show r.val = (u.val * 1 + u'.val) * c + r.val
    simp [hu, hu'])

/-! ## A smaller array stretched over `[a, b, c]` -/

/-- `[a, 1, c]` broadcast to `[a, b, c]`: every `q` reads row `p`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[1, 1, c]` broadcast to `[a, b, c]`: every `(p, q)` reads the one row. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- `[a, b, 1]` broadcast to `[a, b, c]`: every lane `r` reads the entry of `(p, q)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## A sum over the middle axis -/

/-- The index a reduction of `[a, b, c]` over its middle axis puts back at `(p, r)` and summand `k` is `(p, k, r)`. -/
theorem lift_mid {a b c : ℕ} (h : (⟨3, ![a, b, c]⟩ : Shape).Reduces [1] ⟨2, ![a, c]⟩) (p : Fin a) (r : Fin c) (k : Fin b) :
    h.lift (ix2 p r) k = ix3 p k r :=
  funext fun ax => Fin.ext (by
    match ax with
    | ⟨0, _⟩ => rfl
    | ⟨1, _⟩ => rfl
    | ⟨2, _⟩ => rfl)

/-- A float sum of `[a, b, c]` over its middle axis, on the extended reals, at `(p, r)`: the sum over `k` of the
    entries `(p, k, r)`. -/
theorem multiReduction_add_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) := by
  rw [Ideal.multiReduction_add_single]
  exact Finset.sum_congr rfl fun k _ => congrArg src (lift_mid h p r k)

/-! ## A matrix product into a zero accumulator -/

/-- `[M, K]` times `[K, N]` into the zero accumulator, on the extended reals, at `(p, q)`: the sum over the shared
    index of the products, whatever the precision key. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun ax => Fin.ext (by
      match ax with
      | ⟨0, _⟩ => exact ((DotDims.plain M K N).rhsIdx_val_of_single rfl (ix2 p q) _).trans hk
      | ⟨1, _⟩ => rfl)
  rw [el, er]

end Cert.LibFlatten
-- ==== Proof.LibColumn.lean ====
/-
  Column vectors read at an index given by coordinates: a column `[a, 1]` stretched over `b` lanes, and a vector
  `[a]` or a row `[1, a]` stood up as the column `[a, 1]`. Each is the library's general lemma for the operation
  with the coordinate arithmetic done once, for indices written `ix1` / `ix2`.
-/
import Idealize.ShloMosaic.Lib.Pipeline.Value
import Idealize.ShloMosaic.Lib.ValueIdx

namespace Cert.LibColumn

open Idealize.ShloMosaic Idealize.ShloMosaic.ValueIdx

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row `[1, a]` cast to the column `[a, 1]` reads, at `(i, u)`, the row's entry `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

end Cert.LibColumn
-- ==== Proof.KerPayload.lean ====
/-
  The kernel body's stored value read at an index: row `n` of a block, output column `h`, is the kernel's
  arrangement of node `n`'s update (`Cert.Mlp.nodeKer`) of the block's rows.

  The body flattens the `[80, 30, ·]` stack of neighbour rows to `[2400, ·]` for the two large products and stacks the
  results again: row `n * 30 + k` of a flat array is neighbour `k` of node `n`. Changes of float format are the identity
  on the extended reals, a product into a zero accumulator is the sum over the shared index, and a lane sum is the
  sum over the neighbours.
-/
import proofs.«428306_j7370163880383_3_alg».proof.Proof.Gen.KernelIdeal.Skeleton
import proofs.«428306_j7370163880383_3_alg».proof.Proof.MlpSpec
import proofs.«428306_j7370163880383_3_alg».proof.Proof.LibFlatten
import proofs.«428306_j7370163880383_3_alg».proof.Proof.LibColumn
import Idealize.ShloMosaic.Lib.ValueLayout
import Idealize.ShloMosaic.PureOps.Ideal.Laws

noncomputable section

namespace Cert.Mlp.Ker

open Idealize.ShloMosaic Idealize.ShloMosaic.ValueIdx Cert.KernelIdeal Cert.KernelIdeal.Gen Cert.LibFlatten Cert.LibColumn

/-! ## The three products are plain matrix products -/

theorem dotV_eq : dot_S80x256_S256x256_S80x256_1_0_0_1_n_n = DotDims.plain 80 256 256 := rfl
theorem dotE_eq : dot_S2400x512_S512x256_S2400x256_1_0_0_1_n_n = DotDims.plain 2400 512 256 := rfl
theorem dotH_eq : dot_S2400x256_S256x256_S2400x256_1_0_0_1_n_n = DotDims.plain 2400 256 256 := rfl

/-! ## Neighbour `k` of node `n` in a flat array -/

/-- Row `n * 30 + k` of a `[2400, ·]` array. -/
def flat (n : Fin 80) (k : Fin 30) : Fin 2400 := ⟨n.val * 30 + k.val, by omega⟩

/-- A flat `[2400, c]` array stacked to `[80, 30, c]`: entry `(n, k, r)` is row `n * 30 + k`. -/
theorem stack_apply {α : Type} {c : ℕ} (y : (⟨2, ![2400, c]⟩ : Shape).Idx → α)
    (h : (⟨2, ![2400, c]⟩ : Shape).ShapeCasts ⟨3, ![80, 30, c]⟩) (n : Fin 80) (k : Fin 30) (r : Fin c) :
    shapeCast ⟨3, ![80, 30, c]⟩ y h (ix3 n k r) = y (ix2 (flat n k) r) :=
  shapeCast_nc_abc_apply y h n k r (flat n k) rfl

/-- An `[80, 30, c]` stack flattened to `[2400, c]`: row `n * 30 + k` is entry `(n, k, ·)`. -/
theorem flatten_apply {α : Type} {c : ℕ} (x : (⟨3, ![80, 30, c]⟩ : Shape).Idx → α)
    (h : (⟨3, ![80, 30, c]⟩ : Shape).ShapeCasts ⟨2, ![2400, c]⟩) (n : Fin 80) (k : Fin 30) (r : Fin c) :
    shapeCast ⟨2, ![2400, c]⟩ x h (ix2 (flat n k) r) = x (ix3 n k r) :=
  shapeCast_abc_nc_apply x h n k r (flat n k) rfl

/-- The zero word of the two rectifiers, as a scalar, is the extended real `0`. -/
theorem scalar_zero : (Scalar.ofBits .f32 0x00000000#32 : Ideal .f32) = 0 := Ideal.ofBits_zero_f32

/-- The divisor word of the two means, as a scalar, is the specification's `c30`. -/
theorem scalar_c30 : (Scalar.ofBits .f32 0x41F00000#32 : Ideal .f32) = Cert.Mlp.c30 := rfl

/-! ## The second layer before its rectifier -/

/-- The value the first part of the body hands on, at neighbour `k` of node `n` and column `j`: the second layer's
    sum over the rectified first layer (formed from the two row blocks of `W1`), plus its bias. -/
theorem pay4_apply (x0 : Vec Ideal S1x80x256 .f32) (x1 : Vec Ideal S1x80x30x512 .f32) (w1v : Vec Ideal S256x256 .bf16)
    (b1 : Vec Ideal S256 .f32) (w1e : Vec Ideal S512x256 .bf16) (w2 : Vec Ideal S256x256 .bf16) (b2 : Vec Ideal S256 .f32)
    (n : Fin 80) (k : Fin 30) (j : Fin 256) :
    k0_pay4 x0 x1 w1v b1 w1e w2 b2 (ix3 n k j)
      = (∑ d : Fin 256, Cert.Mlp.layerSplit (fun e => x0 (ix3 (0 : Fin 1) n e)) (fun e => x1 (ix4 (0 : Fin 1) n k e))
            (fun e i => w1v (ix2 e i)) (fun e i => w1e (ix2 e i)) (fun i => b1 (ix1 i)) d * w2 (ix2 d j))
        + b2 (ix1 j) := by
  unfold k0_pay4 k0_pay2
  simp only [addf_apply, maximumf_apply, truncf_apply, broadcast_apply, dotV_eq, dotE_eq, dotH_eq, matmul,
    stack_apply, flatten_apply, matmul_plain_zero_apply, shapeCast_self, shapeCast_1ab_ab_apply, shapeCast_1abc_abc_apply,
    shapeCast_a_1a_apply, broadcastTo_1b_ab_apply, shapeCast_ac_a1c_apply, broadcastTo_a1c_abc_apply,
    shapeCast_c_11c_apply, broadcastTo_11c_abc_apply, scalar_zero, Cert.Mlp.layerSplit]

/-! ## The stored value -/

/-- The body's stored value at row `n`, column `h`, from the second layer's pre-rectifier values `v34`, the block's
    node rows `v1`, the mask column `v5`, `W3` and `b3`: the masked mean over the neighbours of the rectified second
    layer, through `W3`, plus `b3` times the mean of the mask, added to the node's own entry. -/
theorem pay1_apply (v1 : FVec Ideal S80x256 .f32) (v5 : FVec Ideal S80x30x1 .f32) (v34 : FVec Ideal S80x30x256 .f32)
    (w3 : Vec Ideal S256x256 .f32) (b3 : Vec Ideal S256 .f32) (u : Fin 1) (n : Fin 80) (h : Fin 256) :
    k0_pay1 v1 v5 v34 w3 b3 (ix3 u n h)
      = v1 (ix2 n h) + ((∑ d : Fin 256,
            Ideal.div (∑ k : Fin 30, max (v34 (ix3 n k d)) 0 * v5 (ix3 n k (0 : Fin 1))) Cert.Mlp.c30 * w3 (ix2 d h))
          + b3 (ix1 h) * Ideal.div (∑ k : Fin 30, v5 (ix3 n k (0 : Fin 1))) Cert.Mlp.c30) := by
  unfold k0_pay1
  simp only [addf_apply, mulf_apply, divf_apply, broadcast_apply, dotV_eq, matmul,
    matmul_plain_zero_apply, shapeCast_ab_1ab_apply, shapeCast_a_1a_apply, broadcastTo_1b_ab_apply,
    broadcastTo_a1_ab_apply, scalar_c30]
  -- what is left are the two sums over the neighbours, each under its mean
  refine congrArg (v1 (ix2 n h) + ·) (congrArg₂ (· + ·) (Finset.sum_congr rfl fun d _ => ?_) ?_)
  · refine congrArg (fun s => Ideal.div s Cert.Mlp.c30 * w3 (ix2 d h)) ?_
    refine (multiReduction_add_mid_apply (a := 80) (b := 30) (c := 256) _ _ reduces_S80x30x256_S80x256 _ _ n d).trans ?_
    refine Finset.sum_congr rfl fun k _ => ?_
    simp only [mulf_apply, maximumf_apply, broadcast_apply, broadcastTo_ab1_abc_apply, scalar_zero]
  · refine congrArg (fun s => b3 (ix1 h) * Ideal.div s Cert.Mlp.c30) ?_
    exact multiReduction_add_mid_apply (a := 80) (b := 30) (c := 1) v5 _ reduces_S80x30x1_S80x1 _ _ n (0 : Fin 1)

/-- THE PAYLOAD AT AN INDEX: what the body stores at row `n`, column `h` of its output block is the kernel's
    arrangement of node `n`'s update, of the rows of the ten input blocks. -/
theorem payload_apply (x0 : Vec Ideal S1x80x256 .f32) (x1 : Vec Ideal S1x80x30x512 .f32) (x2 : Vec Ideal S1x80x30x1 .f32)
    (x3 : Vec Ideal S256x256 .bf16) (x4 : Vec Ideal S512x256 .bf16) (x5 : Vec Ideal S256 .f32)
    (x6 : Vec Ideal S256x256 .bf16) (x7 : Vec Ideal S256 .f32) (x8 : Vec Ideal S256x256 .f32) (x9 : Vec Ideal S256 .f32)
    (u : Fin 1) (n : Fin 80) (h : Fin 256) :
    k0_pay1 (k0_pay2 x0) (k0_pay3 x2) (k0_pay4 x0 x1 x3 x5 x4 x6 x7) x8 x9 (ix3 u n h)
      = Cert.Mlp.nodeKer (fun d => x0 (ix3 (0 : Fin 1) n d)) (fun k d => x1 (ix4 (0 : Fin 1) n k d))
          (fun k => x2 (ix4 (0 : Fin 1) n k (0 : Fin 1))) (fun d j => x3 (ix2 d j)) (fun d j => x4 (ix2 d j))
          (fun j => x5 (ix1 j)) (fun d j => x6 (ix2 d j)) (fun j => x7 (ix1 j)) (fun d j => x8 (ix2 d j))
          (fun j => x9 (ix1 j)) h := by
  rw [pay1_apply]
  simp only [pay4_apply]
  unfold k0_pay2 k0_pay3
  simp only [shapeCast_1ab_ab_apply, shapeCast_1abc_abc_apply, Cert.Mlp.nodeKer, Cert.Mlp.layer]

end Cert.Mlp.Ker

end
-- ==== Proof.KerArray.lean ====
/-
  From the blocks to the whole array: after the kernel's run its result array is `GK` (the kernel's arrangement of
  every node's update) of the ten arrays its windows read as the region finds them.

  The grid has 4 x 25 points; point `t` works on batch `t / 25` and on the eighty nodes `80 * (t % 25) …`. The node rows,
  neighbour rows and mask column move with the output block; the seven parameter arrays are read whole at every
  point. What a point writes back is therefore the block of `GK` at that point, and the hundred blocks tile the array.
-/
import proofs.«428306_j7370163880383_3_alg».proof.Proof.Gen.KernelIdeal.Value
import proofs.«428306_j7370163880383_3_alg».proof.Proof.KerPayload
import proofs.«428306_j7370163880383_3_alg».proof.Proof.MlpSpec

set_option maxRecDepth 16384

noncomputable section

namespace Cert.Mlp.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The kernel's result as one function of the arrays its ten windows read, as the region finds them. -/
abbrev GKV (c : Dev nD) : S4x2000x256.Idx → EReal :=
  Cert.Mlp.GK (V m c main_arg0) (V m c main_arg1) (V m c main_v5) (V m c main_v1) (V m c main_v3) (V m c main_arg4)
    (V m c main_v4) (V m c main_arg6) (V m c main_arg7) (V m c main_arg8)

/-! ## The printed index maps, decided over the hundred grid points -/

/-- The three moving input windows and the output window are at block `(t / 25, t % 25, 0 …)`. -/
theorem idx_moving : ∀ t : Fin cfg0.N,
    win0_0.index t (0 : Fin 3) = t.val / 25 ∧ win0_0.index t (1 : Fin 3) = t.val % 25 ∧ win0_0.index t (2 : Fin 3) = 0
    ∧ win0_1.index t (0 : Fin 4) = t.val / 25 ∧ win0_1.index t (1 : Fin 4) = t.val % 25 ∧ win0_1.index t (2 : Fin 4) = 0
      ∧ win0_1.index t (3 : Fin 4) = 0
    ∧ win0_2.index t (0 : Fin 4) = t.val / 25 ∧ win0_2.index t (1 : Fin 4) = t.val % 25 ∧ win0_2.index t (2 : Fin 4) = 0
      ∧ win0_2.index t (3 : Fin 4) = 0
    ∧ win0_10.index t (0 : Fin 3) = t.val / 25 ∧ win0_10.index t (1 : Fin 3) = t.val % 25 ∧ win0_10.index t (2 : Fin 3) = 0 :=
  (by decide +kernel : ∀ t : Fin grid0.N, _)

/-- The seven parameter windows stay at block zero. -/
theorem idx_fixed : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-! ## Each input block read where the output's rectangle says -/

/-- Row `n` of the node block at point `t` is node `80 * (t % 25) + n` of batch `t / 25`. -/
theorem blk0_apply (c : Dev nD) (t : Fin cfg0.N) (n : Fin 80) (d : Fin 256) (b : Fin 4) (r : Fin 2000)
    (hb : b.val = t.val / 25) (hr : r.val = t.val % 25 * 80 + n.val) :
    iblk m c 0 t (ix3 (0 : Fin 1) n d) = V m c main_arg0 (ix3 b r d) := by
  obtain ⟨e0, e1, e2, -⟩ := idx_moving t
  show V m c main_arg0 (((cfg0.win 0).blk t).view.emb (ix3 (0 : Fin 1) n d)) = V m c main_arg0 (ix3 b r d)
  refine congrArg _ (funext fun a => Fin.ext ?_)
  match a with
  | ⟨0, _⟩ => show win0_0.index t (0 : Fin 3) * 1 + 1 * 0 = b.val; omega
  | ⟨1, _⟩ => show win0_0.index t (1 : Fin 3) * 80 + 1 * n.val = r.val; omega
  | ⟨2, _⟩ => show win0_0.index t (2 : Fin 3) * 256 + 1 * d.val = d.val; omega

/-- Neighbour row `(n, k)` of the neighbour block at point `t`. -/
theorem blk1_apply (c : Dev nD) (t : Fin cfg0.N) (n : Fin 80) (k : Fin 30) (d : Fin 512) (b : Fin 4) (r : Fin 2000)
    (hb : b.val = t.val / 25) (hr : r.val = t.val % 25 * 80 + n.val) :
    iblk m c 1 t (ix4 (0 : Fin 1) n k d) = V m c main_arg1 (ix4 b r k d) := by
  obtain ⟨-, -, -, e0, e1, e2, e3, -⟩ := idx_moving t
  show V m c main_arg1 (((cfg0.win 1).blk t).view.emb (ix4 (0 : Fin 1) n k d)) = V m c main_arg1 (ix4 b r k d)
  refine congrArg _ (funext fun a => Fin.ext ?_)
  match a with
  | ⟨0, _⟩ => show win0_1.index t (0 : Fin 4) * 1 + 1 * 0 = b.val; omega
  | ⟨1, _⟩ => show win0_1.index t (1 : Fin 4) * 80 + 1 * n.val = r.val; omega
  | ⟨2, _⟩ => show win0_1.index t (2 : Fin 4) * 30 + 1 * k.val = k.val; omega
  | ⟨3, _⟩ => show win0_1.index t (3 : Fin 4) * 512 + 1 * d.val = d.val; omega

/-- Mask entry `(n, k)` of the mask block at point `t`. -/
theorem blk2_apply (c : Dev nD) (t : Fin cfg0.N) (n : Fin 80) (k : Fin 30) (b : Fin 4) (r : Fin 2000)
    (hb : b.val = t.val / 25) (hr : r.val = t.val % 25 * 80 + n.val) :
    iblk m c 2 t (ix4 (0 : Fin 1) n k (0 : Fin 1)) = V m c main_v5 (ix4 b r k (0 : Fin 1)) := by
  obtain ⟨-, -, -, -, -, -, -, e0, e1, e2, e3, -⟩ := idx_moving t
  show V m c main_v5 (((cfg0.win 2).blk t).view.emb (ix4 (0 : Fin 1) n k (0 : Fin 1))) = V m c main_v5 (ix4 b r k (0 : Fin 1))
  refine congrArg _ (funext fun a => Fin.ext ?_)
  match a with
  | ⟨0, _⟩ => show win0_2.index t (0 : Fin 4) * 1 + 1 * 0 = b.val; omega
  | ⟨1, _⟩ => show win0_2.index t (1 : Fin 4) * 80 + 1 * n.val = r.val; omega
  | ⟨2, _⟩ => show win0_2.index t (2 : Fin 4) * 30 + 1 * k.val = k.val; omega
  | ⟨3, _⟩ => show win0_2.index t (3 : Fin 4) * 1 + 1 * 0 = 0; omega

/-- The node-part rows of the first layer's weights are read whole at every point. -/
theorem blk3_apply (c : Dev nD) (t : Fin cfg0.N) (d j : Fin 256) : iblk m c 3 t (ix2 d j) = V m c main_v1 (ix2 d j) := by
  obtain ⟨e0, e1, -⟩ := idx_fixed t
  show V m c main_v1 (((cfg0.win 3).blk t).view.emb (ix2 d j)) = V m c main_v1 (ix2 d j)
  refine congrArg _ (funext fun a => Fin.ext ?_)
  match a with
  | ⟨0, _⟩ => show win0_3.index t (0 : Fin 2) * 256 + 1 * d.val = d.val; omega
  | ⟨1, _⟩ => show win0_3.index t (1 : Fin 2) * 256 + 1 * j.val = j.val; omega

/-- The neighbour-part rows of the first layer's weights, whole at every point. -/
theorem blk4_apply (c : Dev nD) (t : Fin cfg0.N) (d : Fin 512) (j : Fin 256) :
    iblk m c 4 t (ix2 d j) = V m c main_v3 (ix2 d j) := by
  obtain ⟨-, -, e0, e1, -⟩ := idx_fixed t
  show V m c main_v3 (((cfg0.win 4).blk t).view.emb (ix2 d j)) = V m c main_v3 (ix2 d j)
  refine congrArg _ (funext fun a => Fin.ext ?_)
  match a with
  | ⟨0, _⟩ => show win0_4.index t (0 : Fin 2) * 512 + 1 * d.val = d.val; omega
  | ⟨1, _⟩ => show win0_4.index t (1 : Fin 2) * 256 + 1 * j.val = j.val; omega

/-- The first bias, whole at every point. -/
theorem blk5_apply (c : Dev nD) (t : Fin cfg0.N) (j : Fin 256) : iblk m c 5 t (ix1 j) = V m c main_arg4 (ix1 j) := by
  obtain ⟨-, -, -, -, e0, -⟩ := idx_fixed t
  show V m c main_arg4 (((cfg0.win 5).blk t).view.emb (ix1 j)) = V m c main_arg4 (ix1 j)
  refine congrArg _ (funext fun a => Fin.ext ?_)
  match a with
  | ⟨0, _⟩ => show win0_5.index t (0 : Fin 1) * 256 + 1 * j.val = j.val; omega

/-- The second layer's weights, whole at every point. -/
theorem blk6_apply (c : Dev nD) (t : Fin cfg0.N) (d j : Fin 256) : iblk m c 6 t (ix2 d j) = V m c main_v4 (ix2 d j) := by
  obtain ⟨-, -, -, -, -, e0, e1, -⟩ := idx_fixed t
  show V m c main_v4 (((cfg0.win 6).blk t).view.emb (ix2 d j)) = V m c main_v4 (ix2 d j)
  refine congrArg _ (funext fun a => Fin.ext ?_)
  match a with
  | ⟨0, _⟩ => show win0_6.index t (0 : Fin 2) * 256 + 1 * d.val = d.val; omega
  | ⟨1, _⟩ => show win0_6.index t (1 : Fin 2) * 256 + 1 * j.val = j.val; omega

/-- The second bias, whole at every point. -/
theorem blk7_apply (c : Dev nD) (t : Fin cfg0.N) (j : Fin 256) : iblk m c 7 t (ix1 j) = V m c main_arg6 (ix1 j) := by
  obtain ⟨-, -, -, -, -, -, -, e0, -⟩ := idx_fixed t
  show V m c main_arg6 (((cfg0.win 7).blk t).view.emb (ix1 j)) = V m c main_arg6 (ix1 j)
  refine congrArg _ (funext fun a => Fin.ext ?_)
  match a with
  | ⟨0, _⟩ => show win0_7.index t (0 : Fin 1) * 256 + 1 * j.val = j.val; omega

/-- The third layer's weights, whole at every point. -/
theorem blk8_apply (c : Dev nD) (t : Fin cfg0.N) (d j : Fin 256) : iblk m c 8 t (ix2 d j) = V m c main_arg7 (ix2 d j) := by
  obtain ⟨-, -, -, -, -, -, -, -, e0, e1, -⟩ := idx_fixed t
  show V m c main_arg7 (((cfg0.win 8).blk t).view.emb (ix2 d j)) = V m c main_arg7 (ix2 d j)
  refine congrArg _ (funext fun a => Fin.ext ?_)
  match a with
  | ⟨0, _⟩ => show win0_8.index t (0 : Fin 2) * 256 + 1 * d.val = d.val; omega
  | ⟨1, _⟩ => show win0_8.index t (1 : Fin 2) * 256 + 1 * j.val = j.val; omega

/-- The third bias, whole at every point. -/
theorem blk9_apply (c : Dev nD) (t : Fin cfg0.N) (j : Fin 256) : iblk m c 9 t (ix1 j) = V m c main_arg8 (ix1 j) := by
  obtain ⟨-, -, -, -, -, -, -, -, -, -, e0⟩ := idx_fixed t
  show V m c main_arg8 (((cfg0.win 9).blk t).view.emb (ix1 j)) = V m c main_arg8 (ix1 j)
  refine congrArg _ (funext fun a => Fin.ext ?_)
  match a with
  | ⟨0, _⟩ => show win0_9.index t (0 : Fin 1) * 256 + 1 * j.val = j.val; omega

/-! ## What a point writes back -/

/-- WHAT POINT `t` WRITES BACK is block `t` of `GK` of the arrays as the region finds them: at row `n`, column `h` of
    the block the body stores the kernel's arrangement of the update of node `80 * (t % 25) + n` of batch `t / 25`. -/
theorem flushed_eq (c : Dev nD) (t : Fin cfg0.N) :
    (dats m 0 c).flushed 10 t = ((cfg0.win 10).blk t).view.read (Elt Ideal) (GKV m c) := by
  rw [Cert.KernelIdeal.Value.flushed10]
  unfold out0_10
  rw [View.canon_unit_zero hz3]
  simp only [View.ld_unit_zero (S := S1x80x256) hz3, View.ld_unit_zero (S := S1x80x30x512) hz4,
    View.ld_unit_zero (S := S1x80x30x1) hz4, View.ld_unit_zero (S := S256x256) hz2, View.ld_unit_zero (S := S256) hz1,
    View.ld_unit_zero (S := S512x256) hz2]
  obtain ⟨-, -, -, -, -, -, -, -, -, -, -, e0, e1, e2⟩ := idx_moving t
  funext j
  obtain ⟨u, n, h, rfl⟩ : ∃ (u : Fin 1) (n : Fin 80) (h : Fin 256), j = ix3 u n h := ⟨j 0, j 1, j 2, eq_ix3 j⟩
  have hu : u.val = 0 := by omega
  have ht : t.val < 100 := t.isLt
  -- the array index the block's entry lands on
  let b : Fin 4 := ⟨t.val / 25, by omega⟩
  let r : Fin 2000 := ⟨t.val % 25 * 80 + n.val, by omega⟩
  have hemb : ((cfg0.win 10).blk t).view.emb (ix3 u n h) = ix3 b r h := funext fun a => Fin.ext (by
    match a with
    | ⟨0, _⟩ => show win0_10.index t (0 : Fin 3) * 1 + 1 * u.val = t.val / 25; omega
    | ⟨1, _⟩ => show win0_10.index t (1 : Fin 3) * 80 + 1 * n.val = t.val % 25 * 80 + n.val; omega
    | ⟨2, _⟩ => show win0_10.index t (2 : Fin 3) * 256 + 1 * h.val = h.val; omega)
  show k0_pay1 (k0_pay2 (iblk m c 0 t)) (k0_pay3 (iblk m c 2 t))
      (k0_pay4 (iblk m c 0 t) (iblk m c 1 t) (iblk m c 3 t) (iblk m c 5 t) (iblk m c 4 t) (iblk m c 6 t) (iblk m c 7 t))
      (iblk m c 8 t) (iblk m c 9 t) (ix3 u n h)
    = GKV m c (((cfg0.win 10).blk t).view.emb (ix3 u n h))
  rw [hemb]
  refine (Cert.Mlp.Ker.payload_apply (iblk m c 0 t) (iblk m c 1 t) (iblk m c 2 t) (iblk m c 3 t) (iblk m c 4 t)
    (iblk m c 5 t) (iblk m c 6 t) (iblk m c 7 t) (iblk m c 8 t) (iblk m c 9 t) u n h).trans ?_
  show _ = Cert.Mlp.nodeKer (fun d => V m c main_arg0 (ix3 b r d)) (fun k d => V m c main_arg1 (ix4 b r k d))
    (fun k => V m c main_v5 (ix4 b r k (0 : Fin 1))) (fun d j => V m c main_v1 (ix2 d j)) (fun d j => V m c main_v3 (ix2 d j))
    (fun j => V m c main_arg4 (ix1 j)) (fun d j => V m c main_v4 (ix2 d j)) (fun j => V m c main_arg6 (ix1 j))
    (fun d j => V m c main_arg7 (ix2 d j)) (fun j => V m c main_arg8 (ix1 j)) h
  simp only [blk0_apply m c t _ _ b r rfl rfl, blk1_apply m c t _ _ _ b r rfl rfl, blk2_apply m c t _ _ b r rfl rfl,
    blk3_apply, blk4_apply, blk5_apply, blk6_apply, blk7_apply, blk8_apply, blk9_apply]

/-! ## The hundred blocks tile the array -/

/-- An index of the array is in point `t`'s block iff each coordinate is in the block's range on its axis. -/
theorem mem_blk (t : Fin cfg0.N) (i : S4x2000x256.Idx) :
    i ∈ ((cfg0.win 10).blk t).view.set ↔ ∀ a : Fin 3, win0_10.index t a * S1x80x256.size a ≤ (i a).val
      ∧ (i a).val < win0_10.index t a * S1x80x256.size a + S1x80x256.size a := by
  show i ∈ ((View.whole main_v6).slice (win0_10.rect t)).set ↔ _
  rw [View.set_slice_whole, Rect.mem_set_unit]
  exact Iff.rfl

/-- Every index `(b, r, h)` is in the block of point `25 * b + r / 80`, which writes back. -/
theorem cover (i : S4x2000x256.Idx) :
    ∃ t : Fin cfg0.N, (cfg0.win 10).flush t = true ∧ i ∈ ((cfg0.win 10).blk t).view.set := by
  have h0 : (i 0).val < 4 := (i 0).isLt
  have h1 : (i 1).val < 2000 := (i 1).isLt
  have h2 : (i 2).val < 256 := (i 2).isLt
  let t : Fin cfg0.N := ⟨(i 0).val * 25 + (i 1).val / 80, by show _ < 100; omega⟩
  have tv : t.val = (i 0).val * 25 + (i 1).val / 80 := rfl
  obtain ⟨-, -, -, -, -, -, -, -, -, -, -, e0, e1, e2⟩ := idx_moving t
  refine ⟨t, flush0_10 t, ?_⟩
  rw [mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 80 ≤ (i 1).val ∧ (i 1).val < win0_10.index t (1 : Fin 3) * 80 + 80; omega
  | ⟨2, _⟩ => show win0_10.index t (2 : Fin 3) * 256 ≤ (i 2).val ∧ (i 2).val < win0_10.index t (2 : Fin 3) * 256 + 256; omega

/-- THE ARRAY after the run is `GK` of the arrays as the region finds them. -/
theorem final (c : Dev nD) : (dats m 0 c).arrAt 10 cfg0.N = GKV m c :=
  (dats m 0 c).arrAt_eq_of_cover 10 (GKV m c) (fun t _ => flushed_eq m c t) cover

end Cert.Mlp.Arr

end
-- ==== Proof.MlpLaw.lean ====
/-
  The two arrangements of the node update agree wherever every input is a real number.

  Two steps. The first layer: the 768-term sum splits into its first 256 and last 512 terms, and the kernel adds the
  same three summands in another order; this is true of all extended reals. The third layer: with the second layer's
  outputs `a k d`, the mask `m k`, a column `w` of `W3`, its bias `b` and `c = 1/30`,
    Σ_d ((Σ_k a k d · m k) · c) · w d + b · ((Σ_k m k) · c) = (Σ_k (Σ_d a k d · w d + b) · m k) · c,
  an identity of real numbers (distribute, exchange the two sums). It is carried to the extended reals by showing that
  every quantity involved is the cast of a real and that the cast passes through +, ·, finite sums and max.
-/
import proofs.«428306_j7370163880383_3_alg».proof.Proof.MlpSpec

noncomputable section

namespace Cert.Mlp

open Idealize.ShloMosaic

/-- The divisor of both means is the real number thirty. -/
theorem c30_eq : c30 = ((30 : ℝ) : EReal) := by
  simp [c30, Ideal.ofBits, Ideal.ieee, -EReal.coe_mul]; norm_num

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The cast is monotone, so it commutes with the maximum of two reals. -/
theorem coe_max (a b : ℝ) : ((max a b : ℝ) : EReal) = max (a : EReal) (b : EReal) :=
  EReal.coe_strictMono.monotone.map_max

/-! ### The first layer: one sum over 768 = 256 + 512 inputs, regrouped -/

/-- The 768-term product of the concatenated input with `W1` is the node's 256 terms against the first row block
    plus the neighbour's 512 terms against the second. This holds for all extended reals: it only splits a sum. -/
theorem sum_cat (hv : Fin 256 → EReal) (he : Fin 512 → EReal) (W1 : Fin 768 → Fin 256 → EReal) (j : Fin 256) :
    ∑ d : Fin 768, cat hv he d * W1 d j
      = (∑ d : Fin 256, hv d * W1 ⟨d.val, by omega⟩ j) + ∑ d : Fin 512, he d * W1 ⟨256 + d.val, by omega⟩ j := by
  -- an index below 256 reads the node's features
  have hl : ∀ d : Fin 256, cat hv he (Fin.castAdd 512 d) = hv d := by
    intro d
    have hd : (Fin.castAdd 512 d).val < 256 := d.isLt
    rw [cat, dif_pos hd]
    rfl
  -- an index `256 + d` reads the neighbour's feature `d`
  have hr : ∀ d : Fin 512, cat hv he (Fin.natAdd 256 d) = he d := by
    intro d
    have hd : ¬ (Fin.natAdd 256 d).val < 256 := by rw [Fin.val_natAdd]; omega
    rw [cat, dif_neg hd]
    congr 1
    apply Fin.ext
    show 256 + d.val - 256 = d.val
    omega
  have h := Fin.sum_univ_add (a := 256) (b := 512) (fun d : Fin (256 + 512) => cat hv he d * W1 d j)
  refine h.trans ?_
  simp only [hl, hr]
  rfl

/-- The kernel's first layer, formed from the two row blocks of `W1`, is the reference's first layer on the
    concatenated input: the same terms, added in another order. -/
theorem layerSplit_eq_layer_cat (hv : Fin 256 → EReal) (he : Fin 512 → EReal) (W1 : Fin 768 → Fin 256 → EReal)
    (b1 : Fin 256 → EReal) :
    layerSplit hv he (fun d j => W1 ⟨d.val, by omega⟩ j) (fun d j => W1 ⟨256 + d.val, by omega⟩ j) b1
      = layer (cat hv he) W1 b1 := by
  funext j
  rw [layerSplit, layer, sum_cat, ← add_assoc, add_comm (∑ d : Fin 512, he d * W1 ⟨256 + d.val, by omega⟩ j)]

/-! ### Real inputs give real layers -/

/-- A dense layer with the rectifier sends real inputs, weights and biases to real numbers. -/
theorem layer_real {n : ℕ} {x : Fin n → EReal} {W : Fin n → Fin 256 → EReal} {b : Fin 256 → EReal}
    (hx : ∀ d, ∃ r : ℝ, x d = r) (hW : ∀ d j, ∃ r : ℝ, W d j = r) (hb : ∀ j, ∃ r : ℝ, b j = r) (j : Fin 256) :
    ∃ r : ℝ, layer x W b j = r := by
  choose x' hx using hx
  choose W' hW using hW
  choose b' hb using hb
  -- the witness is the same expression computed in ℝ; the cast passes through max, +, Σ and *
  refine ⟨max ((∑ d, x' d * W' d j) + b' j) 0, ?_⟩
  rw [coe_max, EReal.coe_add, coe_sum, EReal.coe_zero, layer]
  simp only [hx, hW, hb, EReal.coe_mul]

/-- The concatenation of two real vectors is real. -/
theorem cat_real {hv : Fin 256 → EReal} {he : Fin 512 → EReal}
    (hhv : ∀ d, ∃ r : ℝ, hv d = r) (hhe : ∀ d, ∃ r : ℝ, he d = r) (d : Fin 768) : ∃ r : ℝ, cat hv he d = r := by
  unfold cat
  split
  · exact hhv _
  · exact hhe _

/-! ### The third layer commutes with the masked mean -/

/-- In ℝ: with `a k d` the second layer's output for neighbour `k`, `m` the mask, `w` one column of `W3`, `b` its
    bias and `c` the reciprocal of the count,
    `Σ_d ((Σ_k a k d · m k) · c) · w d + b · ((Σ_k m k) · c) = (Σ_k (Σ_d a k d · w d + b) · m k) · c`.
    Both sides are `Σ_k Σ_d a k d · w d · m k · c + Σ_k b · m k · c`. -/
theorem hoist_real (a : Fin 30 → Fin 256 → ℝ) (m : Fin 30 → ℝ) (w : Fin 256 → ℝ) (b c : ℝ) :
    (∑ d, ((∑ k, a k d * m k) * c) * w d) + b * ((∑ k, m k) * c)
      = (∑ k, ((∑ d, a k d * w d) + b) * m k) * c := by
  -- one output column of the kernel's product, term by term
  have h1 : ∀ d, ((∑ k, a k d * m k) * c) * w d = ∑ k, a k d * w d * m k * c := by
    intro d
    rw [Finset.sum_mul, Finset.sum_mul]
    exact Finset.sum_congr rfl (fun k _ => by ring)
  -- one neighbour's masked, scaled third layer, term by term
  have h2 : ∀ k, ((∑ d, a k d * w d) + b) * m k * c = (∑ d, a k d * w d * m k * c) + b * (m k * c) := by
    intro k
    rw [add_mul, add_mul, Finset.sum_mul, Finset.sum_mul]
    ring
  have e1 : ∑ d, ((∑ k, a k d * m k) * c) * w d = ∑ d, ∑ k, a k d * w d * m k * c :=
    Finset.sum_congr rfl (fun d _ => h1 d)
  have e2 : b * ((∑ k, m k) * c) = ∑ k, b * (m k * c) := by
    rw [Finset.sum_mul, Finset.mul_sum]
  have e3 : (∑ k, ((∑ d, a k d * w d) + b) * m k) * c
      = ∑ k, ((∑ d, a k d * w d * m k * c) + b * (m k * c)) := by
    rw [Finset.sum_mul]
    exact Finset.sum_congr rfl (fun k _ => h2 k)
  -- exchange the two summations and collect
  rw [e1, e2, e3, Finset.sum_add_distrib, Finset.sum_comm]

/-- The same identity on the casts, with the mean spelled as the division by `c30`: every quantity is the cast of a
    real, so each side is the cast of the corresponding real expression. -/
theorem hoist (a : Fin 30 → Fin 256 → ℝ) (m : Fin 30 → ℝ) (w : Fin 256 → ℝ) (b : ℝ) :
    (∑ d, Ideal.div (∑ k, (a k d : EReal) * (m k : EReal)) c30 * (w d : EReal))
        + (b : EReal) * Ideal.div (∑ k, (m k : EReal)) c30
      = Ideal.div (∑ k, ((∑ d, (a k d : EReal) * (w d : EReal)) + (b : EReal)) * (m k : EReal)) c30 := by
  rw [c30_eq]
  simp only [Ideal.div_coe (by norm_num : (30 : ℝ) ≠ 0)]
  simp only [← EReal.coe_mul, ← coe_sum, ← EReal.coe_add]
  rw [hoist_real]

/-! ### The node update -/

/-- With every input a real number, the kernel's arrangement of a node's update (first layer from the two row blocks of
    `W1`, third layer applied once to the masked mean) is the reference's (one 768-term first layer, third layer per
    neighbour, then the masked mean). -/
theorem nodeKer_eq_nodeRef
    (hv : Fin 256 → EReal) (he : Fin 30 → Fin 512 → EReal) (mk : Fin 30 → EReal)
    (W1 : Fin 768 → Fin 256 → EReal) (b1 : Fin 256 → EReal) (W2 : Fin 256 → Fin 256 → EReal) (b2 : Fin 256 → EReal)
    (W3 : Fin 256 → Fin 256 → EReal) (b3 : Fin 256 → EReal)
    (hhv : ∀ d, ∃ r : ℝ, hv d = r) (hhe : ∀ k d, ∃ r : ℝ, he k d = r) (hmk : ∀ k, ∃ r : ℝ, mk k = r)
    (hW1 : ∀ d j, ∃ r : ℝ, W1 d j = r) (hb1 : ∀ j, ∃ r : ℝ, b1 j = r)
    (hW2 : ∀ d j, ∃ r : ℝ, W2 d j = r) (hb2 : ∀ j, ∃ r : ℝ, b2 j = r)
    (hW3 : ∀ d j, ∃ r : ℝ, W3 d j = r) (hb3 : ∀ j, ∃ r : ℝ, b3 j = r) (h : Fin 256) :
    nodeKer hv he mk (fun d j => W1 ⟨d.val, by omega⟩ j) (fun d j => W1 ⟨256 + d.val, by omega⟩ j) b1 W2 b2 W3 b3 h
      = nodeRef hv he mk W1 b1 W2 b2 W3 b3 h := by
  -- the second layer's output for every neighbour is a real number `a k d`
  have hreal : ∀ k d, ∃ r : ℝ, layer (layer (cat hv (he k)) W1 b1) W2 b2 d = r := fun k d =>
    layer_real (layer_real (cat_real hhv (hhe k)) hW1 hb1) hW2 hb2 d
  choose a ha using hreal
  -- so are the mask, column `h` of `W3` and its bias
  choose m hm using hmk
  choose w hw using fun d => hW3 d h
  obtain ⟨b, hb⟩ := hb3 h
  -- both sides in terms of `a`, `m`, `w`, `b`: the first layers agree, and the rest is the hoist
  rw [nodeKer, nodeRef]
  simp only [layerSplit_eq_layer_cat, ha, hm, hw, hb]
  rw [hoist]

end Cert.Mlp

end
-- ==== Proof.KerIsG.lean ====
/-
  From the arrays the region finds to the launched arguments: four of the kernel's windows read arrays that host
  operations wrote before the region (the mask with a trailing unit axis; the two row blocks of `W1` and `W2`, each
  after a change of float format, which is the identity on the extended reals). Read at an index they are the
  arguments' entries, so `GK` of the region's arrays is the kernel's arrangement of every node's update of the launched
  arguments, and where every argument entry is a real number that is the reference's arrangement `G`.
-/
import proofs.«428306_j7370163880383_3_alg».proof.Proof.KerArray
import proofs.«428306_j7370163880383_3_alg».proof.Proof.MlpLaw
import Idealize.ShloMosaic.Lib.StableHlo.Run
import Idealize.ShloMosaic.Lib.ValueLayout

noncomputable section

namespace Cert.Mlp.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The four arrays written before the region -/

/-- The mask the region finds is the launched mask recast with a trailing unit axis. -/
theorem V_mask (c : Dev nD) : (V m c main_v5 : S4x2000x30x1.Idx → EReal)
    = shapeCast S4x2000x30x1 (m ((c : Thread nD τ).loc main_arg2)) shapeCasts_S4x2000x30_S4x2000x30x1 := by
  dsimp only [Gen.V, Gen.hostOps0]; after_results <;> rfl

/-- The first 256 rows of `W1`, after the change of format. -/
theorem V_w1v (c : Dev nD) : (V m c main_v1 : S256x256.Idx → EReal)
    = (truncf (F := Ideal) .bf16
        (extractStridedSlice S256x256 ![0, 0] (m ((c : Thread nD τ).loc main_arg3)) slices_S768x256_S256x256_0_0)
        bitsLt_bf16_f32 : S256x256.Idx → EReal) := by
  dsimp only [Gen.V, Gen.hostOps0]; after_results <;> rfl

/-- The last 512 rows of `W1`, after the change of format. -/
theorem V_w1e (c : Dev nD) : (V m c main_v3 : S512x256.Idx → EReal)
    = (truncf (F := Ideal) .bf16
        (extractStridedSlice S512x256 ![256, 0] (m ((c : Thread nD τ).loc main_arg3)) slices_S768x256_S512x256_256_0)
        bitsLt_bf16_f32 : S512x256.Idx → EReal) := by
  dsimp only [Gen.V, Gen.hostOps0]; after_results <;> rfl

/-- `W2` after the change of format. -/
theorem V_w2 (c : Dev nD) : (V m c main_v4 : S256x256.Idx → EReal)
    = (truncf (F := Ideal) (s := S256x256) (φ := .f32) .bf16 (m ((c : Thread nD τ).loc main_arg5)) bitsLt_bf16_f32
        : S256x256.Idx → EReal) := by
  dsimp only [Gen.V, Gen.hostOps0]; after_results <;> rfl

/-! ## … read at an index -/

/-- Entry `(b, r, k, 0)` of the recast mask is entry `(b, r, k)` of the launched mask. -/
theorem mask_apply (c : Dev nD) (b : Fin 4) (r : Fin 2000) (k : Fin 30) :
    V m c main_v5 (ix4 b r k (0 : Fin 1)) = m ((c : Thread nD τ).loc main_arg2) (ix3 b r k) :=
  (congrFun (V_mask m c) (ix4 b r k (0 : Fin 1))).trans (shapeCast_apply _ _ _ _ (by
    show ((⟨3, ![4, 2000, 30]⟩ : Shape).rowMajor (ix3 b r k)).val
      = ((⟨4, ![4, 2000, 30, 1]⟩ : Shape).rowMajor (ix4 b r k (0 : Fin 1))).val
    rw [Shape.rowMajor_val_three, Shape.rowMajor_val_four]
    show (b.val * 2000 + r.val) * 30 + k.val = ((b.val * 2000 + r.val) * 30 + k.val) * 1 + 0
    omega))

/-- Row `d` of the node part of the first layer's weights is row `d` of `W1`. -/
theorem w1v_apply (c : Dev nD) (d j : Fin 256) :
    V m c main_v1 (ix2 d j) = m ((c : Thread nD τ).loc main_arg3) (ix2 (⟨d.val, by omega⟩ : Fin 768) j) :=
  (congrFun (V_w1v m c) (ix2 d j)).trans
    (slice2_axis0_apply 0 (m ((c : Thread nD τ).loc main_arg3)) slices_S768x256_S256x256_0_0 d j _ (Nat.zero_add _).symm)

/-- Row `d` of the neighbour part of the first layer's weights is row `256 + d` of `W1`. -/
theorem w1e_apply (c : Dev nD) (d : Fin 512) (j : Fin 256) :
    V m c main_v3 (ix2 d j) = m ((c : Thread nD τ).loc main_arg3) (ix2 (⟨256 + d.val, by omega⟩ : Fin 768) j) :=
  (congrFun (V_w1e m c) (ix2 d j)).trans
    (slice2_axis0_apply 256 (m ((c : Thread nD τ).loc main_arg3)) slices_S768x256_S512x256_256_0 d j _ rfl)

/-- The second layer's weights are `W2`'s entries. -/
theorem w2_apply (c : Dev nD) (d j : Fin 256) :
    V m c main_v4 (ix2 d j) = m ((c : Thread nD τ).loc main_arg5) (ix2 d j) :=
  congrFun (V_w2 m c) (ix2 d j)

/-! ## The kernel's array is the reference's -/

/-- Where every entry of the nine launched arguments is a real number, the kernel's result array — `GK` of the arrays
    the region finds — is `G` of the launched arguments: node by node the two arrangements of the update agree. -/
theorem GKV_eq_G (c : Dev nD)
    (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal))
    (h3 : ∀ i, ∃ r : ℝ, m ((c : Thread nD τ).loc main_arg3) i = (r : EReal))
    (h4 : ∀ i, ∃ r : ℝ, m ((c : Thread nD τ).loc main_arg4) i = (r : EReal))
    (h5 : ∀ i, ∃ r : ℝ, m ((c : Thread nD τ).loc main_arg5) i = (r : EReal))
    (h6 : ∀ i, ∃ r : ℝ, m ((c : Thread nD τ).loc main_arg6) i = (r : EReal))
    (h7 : ∀ i, ∃ r : ℝ, m ((c : Thread nD τ).loc main_arg7) i = (r : EReal))
    (h8 : ∀ i, ∃ r : ℝ, m ((c : Thread nD τ).loc main_arg8) i = (r : EReal)) :
    Cert.Mlp.Arr.GKV m c
      = Cert.Mlp.G (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext i
  -- every index is `(b, n, h)` for its three coordinates; both sides there are node `(b, n)`'s update at column `h`
  obtain ⟨b, n, h, rfl⟩ : ∃ (b : Fin 4) (n : Fin 2000) (h : Fin 256), i = ix3 b n h := ⟨i 0, i 1, i 2, eq_ix3 i⟩
  show Cert.Mlp.nodeKer (fun d => V m c main_arg0 (ix3 b n d)) (fun k d => V m c main_arg1 (ix4 b n k d))
      (fun k => V m c main_v5 (ix4 b n k (0 : Fin 1))) (fun d j => V m c main_v1 (ix2 d j))
      (fun d j => V m c main_v3 (ix2 d j)) (fun j => V m c main_arg4 (ix1 j)) (fun d j => V m c main_v4 (ix2 d j))
      (fun j => V m c main_arg6 (ix1 j)) (fun d j => V m c main_arg7 (ix2 d j)) (fun j => V m c main_arg8 (ix1 j)) h
    = Cert.Mlp.nodeRef (fun d => m ((c : Thread nD τ).loc main_arg0) (ix3 b n d))
      (fun k d => m ((c : Thread nD τ).loc main_arg1) (ix4 b n k d)) (fun k => m ((c : Thread nD τ).loc main_arg2) (ix3 b n k))
      (fun d j => m ((c : Thread nD τ).loc main_arg3) (ix2 d j)) (fun j => m ((c : Thread nD τ).loc main_arg4) (ix1 j))
      (fun d j => m ((c : Thread nD τ).loc main_arg5) (ix2 d j)) (fun j => m ((c : Thread nD τ).loc main_arg6) (ix1 j))
      (fun d j => m ((c : Thread nD τ).loc main_arg7) (ix2 d j)) (fun j => m ((c : Thread nD τ).loc main_arg8) (ix1 j)) h
  rw [V_main_arg0 m c, V_main_arg1 m c, V_main_arg4 m c, V_main_arg6 m c, V_main_arg7 m c, V_main_arg8 m c]
  have e2 : (fun k => V m c main_v5 (ix4 b n k (0 : Fin 1))) = fun k => m ((c : Thread nD τ).loc main_arg2) (ix3 b n k) :=
    funext fun k => mask_apply m c b n k
  have e3 : (fun d j => V m c main_v1 (ix2 d j))
      = fun (d : Fin 256) j => m ((c : Thread nD τ).loc main_arg3) (ix2 (⟨d.val, by omega⟩ : Fin 768) j) :=
    funext fun d => funext fun j => w1v_apply m c d j
  have e4 : (fun d j => V m c main_v3 (ix2 d j))
      = fun (d : Fin 512) j => m ((c : Thread nD τ).loc main_arg3) (ix2 (⟨256 + d.val, by omega⟩ : Fin 768) j) :=
    funext fun d => funext fun j => w1e_apply m c d j
  have e6 : (fun d j => V m c main_v4 (ix2 d j)) = fun d j => m ((c : Thread nD τ).loc main_arg5) (ix2 d j) :=
    funext fun d => funext fun j => w2_apply m c d j
  rw [e2, e3, e4, e6]
  exact Cert.Mlp.nodeKer_eq_nodeRef _ _ _ (fun d j => m ((c : Thread nD τ).loc main_arg3) (ix2 d j)) _ _ _ _ _
    (fun d => h0 _) (fun k d => h1 _) (fun k => h2 _) (fun d j => h3 _) (fun j => h4 _) (fun d j => h5 _)
    (fun j => h6 _) (fun d j => h7 _) (fun j => h8 _) h

end Cert.Mlp.Bridge

end
-- ==== Proof.lean ====
/-
  The certificate of a message-passing node update: for every node, a three-layer MLP on the node's features joined
  with each of its thirty neighbours' edge features, masked, averaged over the neighbours and added to the node's
  features.

  The reference applies the third layer to every neighbour and averages afterwards; the kernel averages the masked
  second layer first and applies the third layer once, and forms the first layer from the two row blocks of its weight
  matrix. On the extended reals the two are the same function of the nine argument arrays wherever every entry is a
  real number (the third layer and the masked mean are both linear; moving one past the other distributes products
  over sums, which fails at the infinities), and the precondition says exactly that.

  The frames of the two kernel programs are the generated ones; the reference's frame is its generated run with the
  result dropped; the idealization rewrote nothing, so `preserves` is trivial. For `algebraic`: the kernel's run ends
  with its result array at `GK` of the arrays the region finds (the generated value leg, then Proof/KerPayload.lean
  for one block entry and Proof/KerArray.lean for the hundred blocks), which is `G` of the launched arguments
  (Proof/KerIsG.lean over Proof/MlpLaw.lean, under Proof/Finite.lean's reading of the precondition); the reference's
  run ends at `G` of its arguments (Proof/RefIsG.lean over the generated read-at-an-index lemmas).
-/
import proofs.«428306_j7370163880383_3_alg».proof.Defs
import proofs.«428306_j7370163880383_3_alg».proof.Proof.Gen.Kernel
import proofs.«428306_j7370163880383_3_alg».proof.Proof.Gen.Kernel.Skeleton
import proofs.«428306_j7370163880383_3_alg».proof.Proof.Gen.Kernel.Launch
import proofs.«428306_j7370163880383_3_alg».proof.Proof.Gen.Kernel.Points
import proofs.«428306_j7370163880383_3_alg».proof.Proof.Gen.Kernel.Frame
import proofs.«428306_j7370163880383_3_alg».proof.Proof.Gen.KernelIdeal
import proofs.«428306_j7370163880383_3_alg».proof.Proof.Gen.KernelIdeal.Skeleton
import proofs.«428306_j7370163880383_3_alg».proof.Proof.Gen.KernelIdeal.Launch
import proofs.«428306_j7370163880383_3_alg».proof.Proof.Gen.KernelIdeal.Points
import proofs.«428306_j7370163880383_3_alg».proof.Proof.Gen.KernelIdeal.Frame
import proofs.«428306_j7370163880383_3_alg».proof.Proof.Gen.ReferenceIdeal
import proofs.«428306_j7370163880383_3_alg».proof.Proof.Gen.Pre_finite_inputs
import proofs.«428306_j7370163880383_3_alg».proof.Proof.Gen.KernelIdeal.Value
import proofs.«428306_j7370163880383_3_alg».proof.Proof.Gen.ReferenceIdeal.Run
import proofs.«428306_j7370163880383_3_alg».proof.Proof.Gen.ReferenceIdeal.Read
import proofs.«428306_j7370163880383_3_alg».proof.Proof.Finite
import proofs.«428306_j7370163880383_3_alg».proof.Proof.RefIsG
import proofs.«428306_j7370163880383_3_alg».proof.Proof.KerIsG
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments, all of whose entries are real, both programs end with the
    result array at `G` of the arguments. -/
theorem algebraic : Cert.algebraic_KernelIdeal_ReferenceIdeal := by
  intro m ρ m' ρ' hpre hagree
  refine ⟨fun c => Cert.Mlp.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8)), ?_, ?_⟩
  · -- the kernel: the generated run names the result array; the blocks tile it with `GK`, which is `G` on real inputs
    refine (θ_run Cert.KernelIdeal.defs _ _).mono (fun r h c => ⟨(h c).1.trans ?_, (h c).2⟩)
      (Cert.KernelIdeal.Value.run_blocks m ρ)
    obtain ⟨h0, h1, h2, h3, h4, h5, h6, h7, h8⟩ := Cert.Mlp.Finite.real_of_pre _ _ _ _ _ _ _ _ _ (hpre c)
    exact (Cert.Mlp.Arr.final m c).trans (Cert.Mlp.Bridge.GKV_eq_G m c h0 h1 h2 h3 h4 h5 h6 h7 h8)
  · -- the reference: its run's term is its last stage, which is `G` of its own arguments, which are the kernel's
    refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v23_eq, Cert.Mlp.Ref.ref_eq_G, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
